-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128x64 : Shape := ⟨2, ![128, 64]⟩
abbrev S1000000x2 : Shape := ⟨2, ![1000000, 2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S1000000x2 : S_.BroadcastsInDim S1000000x2 (![] : Fin 0 → Fin S1000000x2.rank)
  reducesTo_S1000000x2_S_d0_1 : S1000000x2.ReducesTo [0, 1] S_

variable [Facts]

def fn_part1 {F : FTy → Type} [FloatOps F] (main_arg3 : IVec S1000000x2 32) (main_arg4 : IVec S1000000x2 32) (main_v13 : IVec S_ 1) (main_v15 : IVec S1000000x2 1) (main_c_5 : IVec S_ 32) : IVec S_ 1 :=
  let main_v16 : IVec S1000000x2 32 := broadcastInDim S1000000x2 ![] bcast_S_S1000000x2 main_c_5
  let main_v17 : IVec S1000000x2 1 := cmpi .slt main_arg3 main_v16
  let main_v18 : IVec S1000000x2 1 := andi main_v15 main_v17
  let main_c_6 : IVec S_ 1 := constantI S_ 1 1#1
  let main_v19 : IVec S_ 1 := (fun x v => Host.reduce IntOp.andi x v reducesTo_S1000000x2_S_d0_1 h_S_) main_v18 main_c_6
  let main_v20 : IVec S_ 1 := andi main_v13 main_v19
  let main_c_7 : IVec S_ 32 := constantI S_ 32 4294867296#32
  let main_v21 : IVec S1000000x2 32 := broadcastInDim S1000000x2 ![] bcast_S_S1000000x2 main_c_7
  let main_v22 : IVec S1000000x2 1 := cmpi .sge main_arg4 main_v21
  let main_c_8 : IVec S_ 32 := constantI S_ 32 100000#32
  let main_v23 : IVec S1000000x2 32 := broadcastInDim S1000000x2 ![] bcast_S_S1000000x2 main_c_8
  let main_v24 : IVec S1000000x2 1 := cmpi .slt main_arg4 main_v23
  let main_v25 : IVec S1000000x2 1 := andi main_v22 main_v24
  let main_c_9 : IVec S_ 1 := constantI S_ 1 1#1
  let main_v26 : IVec S_ 1 := (fun x v => Host.reduce IntOp.andi x v reducesTo_S1000000x2_S_d0_1 h_S_) main_v25 main_c_9
  let main_v27 : IVec S_ 1 := andi main_v20 main_v26
  main_v27

def fn {F : FTy → Type} [FloatOps F] (main_arg0 : FVec F S100000x512 .f32) (main_arg1 : FVec F S512x128 .f32) (main_arg2 : FVec F S128x64 .f32) (main_arg3 : IVec S1000000x2 32) (main_arg4 : IVec S1000000x2 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_c_4 : IVec S_ 32 := constantI S_ 32 4294867296#32
  let main_v14 : IVec S1000000x2 32 := broadcastInDim S1000000x2 ![] bcast_S_S1000000x2 main_c_4
  let main_v15 : IVec S1000000x2 1 := cmpi .sge main_arg3 main_v14
  let main_c_5 : IVec S_ 32 := constantI S_ 32 100000#32
  fn_part1 (F := F) main_arg3 main_arg4 main_v13 main_v15 main_c_5
-- ==== Kernel.lean ====
abbrev S100000x512 : Shape := ⟨2, ![100000, 512]⟩
abbrev S512x128 : Shape := ⟨2, ![512, 128]⟩
abbrev S128x64 : Shape := ⟨2, ![128, 64]⟩
abbrev S1000000x2 : Shape := ⟨2, ![1000000, 2]⟩
abbrev S100000x64 : Shape := ⟨2, ![100000, 64]⟩
abbrev S4000x512 : Shape := ⟨2, ![4000, 512]⟩
abbrev S4000x64 : Shape := ⟨2, ![4000, 64]⟩
abbrev S4000x128 : Shape := ⟨2, ![4000, 128]⟩
abbrev S1000000x1 : Shape := ⟨2, ![1000000, 1]⟩
abbrev S1000000 : Shape := ⟨1, ![1000000]⟩
abbrev S_ : Shape := ⟨0, ![]⟩
abbrev S1015808 : Shape := ⟨1, ![1015808]⟩
abbrev S2031616 : Shape := ⟨1, ![2031616]⟩
abbrev S2031616x1 : Shape := ⟨2, ![2031616, 1]⟩
abbrev S1 : Shape := ⟨1, ![1]⟩
abbrev S1x1 : Shape := ⟨2, ![1, 1]⟩
abbrev S2031616x64 : Shape := ⟨2, ![2031616, 64]⟩
abbrev S1x2031616 : Shape := ⟨2, ![1, 2031616]⟩
abbrev S16384x64 : Shape := ⟨2, ![16384, 64]⟩
abbrev S1x16384 : Shape := ⟨2, ![1, 16384]⟩
abbrev S16384 : Shape := ⟨1, ![16384]⟩
abbrev S2x1015808 : Shape := ⟨2, ![2, 1015808]⟩
abbrev S2x1000000 : Shape := ⟨2, ![2, 1000000]⟩
abbrev S1x1000000 : Shape := ⟨2, ![1, 1000000]⟩
abbrev S2000000 : Shape := ⟨1, ![2000000]⟩
abbrev S2000000x1 : Shape := ⟨2, ![2000000, 1]⟩

abbrev nBuf : Space → Nat
  | .hbm => 84
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128x64, .f32⟩
  | .hbm, ⟨3, _⟩ => ⟨S1000000x2, .i32⟩
  | .hbm, ⟨4, _⟩ => ⟨S1000000x2, .i32⟩
  | .hbm, ⟨5, _⟩ => ⟨S100000x64, .f32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S1000000x1, .i32⟩
  | .hbm, ⟨11, _⟩ => ⟨S1000000, .i32⟩
  | .hbm, ⟨12, _⟩ => ⟨S1000000x1, .i32⟩
  | .hbm, ⟨13, _⟩ => ⟨S1000000, .i32⟩
  | .hbm, ⟨14, _⟩ => ⟨S_, .i32⟩
  | .hbm, ⟨15, _⟩ => ⟨S_, .i32⟩
  | .hbm, ⟨16, _⟩ => ⟨S1015808, .i32⟩
  | .hbm, ⟨17, _⟩ => ⟨S_, .i32⟩
  | .hbm, ⟨18, _⟩ => ⟨S_, .i32⟩
  | .hbm, ⟨19, _⟩ => ⟨S1015808, .i32⟩
  | .hbm, ⟨20, _⟩ => ⟨S_, .i32⟩
  | .hbm, ⟨21, _⟩ => ⟨S_, .i32⟩
  | .hbm, ⟨22, _⟩ => ⟨S1015808, .i32⟩
  | .hbm, ⟨23, _⟩ => ⟨S_, .i32⟩
  | .hbm, ⟨24, _⟩ => ⟨S_, .i32⟩
  | .hbm, ⟨25, _⟩ => ⟨S1015808, .i32⟩
  | .hbm, ⟨26, _⟩ => ⟨S2031616, .i32⟩
  | .hbm, ⟨27, _⟩ => ⟨S2031616, .i32⟩
  | .hbm, ⟨28, _⟩ => ⟨S_, .i32⟩
  | .hbm, ⟨29, _⟩ => ⟨S2031616, .i32⟩
  | .hbm, ⟨30, _⟩ => ⟨S2031616, .i1⟩
  | .hbm, ⟨31, _⟩ => ⟨S_, .i32⟩
  | .hbm, ⟨32, _⟩ => ⟨S2031616, .i32⟩
  | .hbm, ⟨33, _⟩ => ⟨S2031616, .i32⟩
  | .hbm, ⟨34, _⟩ => ⟨S2031616, .i32⟩
  | .hbm, ⟨35, _⟩ => ⟨S2031616x1, .i32⟩
  | .hbm, ⟨36, _⟩ => ⟨S1, .i32⟩
  | .hbm, ⟨37, _⟩ => ⟨S_, .i32⟩
  | .hbm, ⟨38, _⟩ => ⟨S2031616x1, .i32⟩
  | .hbm, ⟨39, _⟩ => ⟨S2031616x1, .i1⟩
  | .hbm, ⟨40, _⟩ => ⟨S1x1, .i32⟩
  | .hbm, ⟨41, _⟩ => ⟨S2031616x1, .i32⟩
  | .hbm, ⟨42, _⟩ => ⟨S2031616x1, .i1⟩
  | .hbm, ⟨43, _⟩ => ⟨S2031616x1, .i1⟩
  | .hbm, ⟨44, _⟩ => ⟨S_, .i1⟩
  | .hbm, ⟨45, _⟩ => ⟨S2031616, .i1⟩
  | .hbm, ⟨46, _⟩ => ⟨S2031616x64, .f32⟩
  | .hbm, ⟨47, _⟩ => ⟨S2031616x64, .i1⟩
  | .hbm, ⟨48, _⟩ => ⟨S_, .f32⟩
  | .hbm, ⟨49, _⟩ => ⟨S2031616x64, .f32⟩
  | .hbm, ⟨50, _⟩ => ⟨S2031616x64, .f32⟩
  | .hbm, ⟨51, _⟩ => ⟨S_, .i32⟩
  | .hbm, ⟨52, _⟩ => ⟨S2031616, .i32⟩
  | .hbm, ⟨53, _⟩ => ⟨S2031616, .i1⟩
  | .hbm, ⟨54, _⟩ => ⟨S_, .i32⟩
  | .hbm, ⟨55, _⟩ => ⟨S2031616, .i32⟩
  | .hbm, ⟨56, _⟩ => ⟨S2031616, .i32⟩
  | .hbm, ⟨57, _⟩ => ⟨S2031616, .i32⟩
  | .hbm, ⟨58, _⟩ => ⟨S2031616x1, .i32⟩
  | .hbm, ⟨59, _⟩ => ⟨S1, .i32⟩
  | .hbm, ⟨60, _⟩ => ⟨S_, .i32⟩
  | .hbm, ⟨61, _⟩ => ⟨S2031616x1, .i32⟩
  | .hbm, ⟨62, _⟩ => ⟨S2031616x1, .i1⟩
  | .hbm, ⟨63, _⟩ => ⟨S1x1, .i32⟩
  | .hbm, ⟨64, _⟩ => ⟨S2031616x1, .i32⟩
  | .hbm, ⟨65, _⟩ => ⟨S2031616x1, .i1⟩
  | .hbm, ⟨66, _⟩ => ⟨S2031616x1, .i1⟩
  | .hbm, ⟨67, _⟩ => ⟨S_, .i1⟩
  | .hbm, ⟨68, _⟩ => ⟨S2031616, .i1⟩
  | .hbm, ⟨69, _⟩ => ⟨S2031616x64, .f32⟩
  | .hbm, ⟨70, _⟩ => ⟨S2031616x64, .i1⟩
  | .hbm, ⟨71, _⟩ => ⟨S_, .f32⟩
  | .hbm, ⟨72, _⟩ => ⟨S2031616x64, .f32⟩
  | .hbm, ⟨73, _⟩ => ⟨S2031616x64, .f32⟩
  | .hbm, ⟨74, _⟩ => ⟨S1x2031616, .f32⟩
  | .hbm, ⟨75, _⟩ => ⟨S2031616, .f32⟩
  | .hbm, ⟨76, _⟩ => ⟨S2x1015808, .f32⟩
  | .hbm, ⟨77, _⟩ => ⟨S2x1000000, .f32⟩
  | .hbm, ⟨78, _⟩ => ⟨S1x1000000, .f32⟩
  | .hbm, ⟨79, _⟩ => ⟨S1000000, .f32⟩
  | .hbm, ⟨80, _⟩ => ⟨S1x1000000, .f32⟩
  | .hbm, ⟨81, _⟩ => ⟨S1000000, .f32⟩
  | .hbm, ⟨82, _⟩ => ⟨S2000000, .f32⟩
  | .hbm, ⟨83, _⟩ => ⟨S2000000x1, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S128x64, .f32⟩
  | .local _ .vmem, ⟨4, _⟩ => ⟨S4000x64, .f32⟩
  | .local _ .vmem, ⟨5, _⟩ => ⟨S4000x64, .f32⟩
  | .local _ .vmem, ⟨6, _⟩ => ⟨S16384x64, .f32⟩
  | .local _ .vmem, ⟨7, _⟩ => ⟨S16384x64, .f32⟩
  | .local _ .vmem, ⟨8, _⟩ => ⟨S16384x64, .f32⟩
  | .local _ .vmem, ⟨9, _⟩ => ⟨S16384x64, .f32⟩
  | .local _ .vmem, ⟨10, _⟩ => ⟨S1x16384, .f32⟩
  | .local _ .vmem, ⟨11, _⟩ => ⟨S1x16384, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_c_2 : Ref sig .tc := ⟨.hbm, 23, rfl⟩
abbrev main_call3_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call4_c : Ref sig .tc := ⟨.hbm, 28, rfl⟩
abbrev main_call4_v0 : Ref sig .tc := ⟨.hbm, 29, rfl⟩
abbrev main_call4_v1 : Ref sig .tc := ⟨.hbm, 30, rfl⟩
abbrev main_call4_c_0 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_call4_v5 : Ref sig .tc := ⟨.hbm, 35, rfl⟩
abbrev main_call4_c_1 : Ref sig .tc := ⟨.hbm, 36, rfl⟩
abbrev main_call4_c_2 : Ref sig .tc := ⟨.hbm, 37, rfl⟩
abbrev main_call4_v6 : Ref sig .tc := ⟨.hbm, 38, rfl⟩
abbrev main_call4_v7 : Ref sig .tc := ⟨.hbm, 39, rfl⟩
abbrev main_call4_v8 : Ref sig .tc := ⟨.hbm, 40, rfl⟩
abbrev main_call4_v9 : Ref sig .tc := ⟨.hbm, 41, rfl⟩
abbrev main_call4_v10 : Ref sig .tc := ⟨.hbm, 42, rfl⟩
abbrev main_call4_v11 : Ref sig .tc := ⟨.hbm, 43, rfl⟩
abbrev main_call4_c_3 : Ref sig .tc := ⟨.hbm, 44, rfl⟩
abbrev main_call4_v12 : Ref sig .tc := ⟨.hbm, 45, rfl⟩
abbrev main_call4_v13 : Ref sig .tc := ⟨.hbm, 46, rfl⟩
abbrev main_call4_v14 : Ref sig .tc := ⟨.hbm, 47, rfl⟩
abbrev main_call4_cst : Ref sig .tc := ⟨.hbm, 48, rfl⟩
abbrev main_call4_v15 : Ref sig .tc := ⟨.hbm, 49, rfl⟩
abbrev main_v15 : Ref sig .tc := ⟨.hbm, 50, rfl⟩
abbrev main_call5_c : Ref sig .tc := ⟨.hbm, 51, rfl⟩
abbrev main_call5_v0 : Ref sig .tc := ⟨.hbm, 52, rfl⟩
abbrev main_call5_v1 : Ref sig .tc := ⟨.hbm, 53, rfl⟩
abbrev main_call5_c_0 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_c_1 : Ref sig .tc := ⟨.hbm, 59, rfl⟩
abbrev main_call5_c_2 : Ref sig .tc := ⟨.hbm, 60, rfl⟩
abbrev main_call5_v6 : Ref sig .tc := ⟨.hbm, 61, rfl⟩
abbrev main_call5_v7 : Ref sig .tc := ⟨.hbm, 62, rfl⟩
abbrev main_call5_v8 : Ref sig .tc := ⟨.hbm, 63, rfl⟩
abbrev main_call5_v9 : Ref sig .tc := ⟨.hbm, 64, rfl⟩
abbrev main_call5_v10 : Ref sig .tc := ⟨.hbm, 65, rfl⟩
abbrev main_call5_v11 : Ref sig .tc := ⟨.hbm, 66, rfl⟩
abbrev main_call5_c_3 : Ref sig .tc := ⟨.hbm, 67, rfl⟩
abbrev main_call5_v12 : Ref sig .tc := ⟨.hbm, 68, rfl⟩
abbrev main_call5_v13 : Ref sig .tc := ⟨.hbm, 69, rfl⟩
abbrev main_call5_v14 : Ref sig .tc := ⟨.hbm, 70, rfl⟩
abbrev main_call5_cst : Ref sig .tc := ⟨.hbm, 71, rfl⟩
abbrev main_call5_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![124], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  inb_S512x128_S512x128_0_0 : ∀ a, (![0, 0] : Fin 2 → Nat) a + S512x128.size a ≤ S512x128.size a
  h_S512x128 : 0 < S512x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  pads_S1000000_S1015808_0158080 : S1000000.Pads (![0] : Fin 1 → Nat) ![15808] ![0] S1015808
  h_S_ : 0 < S_.numel
  concatenates_S1015808_S1015808_S2031616_d0 : Shape.Concatenates [S1015808, S1015808] S2031616 0
  bcast_S_S2031616 : S_.BroadcastsInDim S2031616 (![] : Fin 0 → Fin S2031616.rank)
  bcast_S2031616_S2031616x1_0 : S2031616.BroadcastsInDim S2031616x1 (![0] : Fin 1 → Fin S2031616x1.rank)
  bcast_S_S2031616x1 : S_.BroadcastsInDim S2031616x1 (![] : Fin 0 → Fin S2031616x1.rank)
  bcast_S1_S1x1_1 : S1.BroadcastsInDim S1x1 (![1] : Fin 1 → Fin S1x1.rank)
  bcast_S1x1_S2031616x1_0_1 : S1x1.BroadcastsInDim S2031616x1 (![0, 1] : Fin 2 → Fin S2031616x1.rank)
  reducesTo_S2031616x1_S2031616_d1 : S2031616x1.ReducesTo [1] S2031616
  bcast_S2031616_S2031616x64_0 : S2031616.BroadcastsInDim S2031616x64 (![0] : Fin 1 → Fin S2031616x64.rank)
  bcast_S_S2031616x64 : S_.BroadcastsInDim S2031616x64 (![] : Fin 0 → Fin S2031616x64.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x2031616_S2031616 : S1x2031616.ShapeCasts S2031616
  shapeCasts_S2031616_S2x1015808 : S2031616.ShapeCasts S2x1015808
  slices_S2x1015808_S2x1000000_0_0 : S2x1015808.Slices ![0, 0] S2x1000000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S1000000_S2000000_d0 : Shape.Concatenates [S1000000, S1000000] S2000000 0
  bcast_S2000000_S2000000x1_0 : S2000000.BroadcastsInDim S2000000x1 (![0] : Fin 1 → Fin S2000000x1.rank)
  dot_S4000x512_S512x128_S4000x128_1_0_0_1_n_n_wf : DotDims.WF S4000x512 S512x128 S4000x128 [1] [0] [0] [1] [] []
  dot_S4000x128_S128x64_S4000x64_1_0_0_1_n_n_wf : DotDims.WF S4000x128 S128x64 S4000x64 [1] [0] [0] [1] [] []
  gather_S100000x64_S2031616x1_S2031616x64_1_0_n_n_0_1_164_wf : GatherDims.WF S100000x64 S2031616x1 S2031616x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S2031616x64.size a
  hwx1_0 : ∀ i : grid1.Coords, EltTy.bits .f32 = 32 ∨ (Rect.block (s := S2031616x64) S16384x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S2031616x64.size a
  hwx1_1 : ∀ i : grid1.Coords, EltTy.bits .f32 = 32 ∨ (Rect.block (s := S2031616x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x2031616.size a
  hwx1_2 : ∀ i : grid1.Coords, EltTy.bits .f32 = 32 ∨ (Rect.block (s := S1x2031616) S1x16384.size (cc1_transform_2 i) (hinb1_2 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S2031616x1_S2031616x64_1_0_n_n_0_1_164 : GatherDims S100000x64 S2031616x1 S2031616x64 where
  offsetDims := [1]
  collapsedSliceDims := [0]
  operandBatchingDims := []
  startIndicesBatchingDims := []
  startIndexMap := [0]
  indexVectorDim := 1
  sliceSizes := ![1, 64]
  wf := gather_S100000x64_S2031616x1_S2031616x64_1_0_n_n_0_1_164_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128x64 : Shape := ⟨2, ![128, 64]⟩
abbrev S1000000x2 : Shape := ⟨2, ![1000000, 2]⟩
abbrev S100000x128 : Shape := ⟨2, ![100000, 128]⟩
abbrev S_ : Shape := ⟨0, ![]⟩
abbrev S100000x64 : Shape := ⟨2, ![100000, 64]⟩
abbrev S1000000x1 : Shape := ⟨2, ![1000000, 1]⟩
abbrev S1000000 : Shape := ⟨1, ![1000000]⟩
abbrev S1000000x64 : Shape := ⟨2, ![1000000, 64]⟩
abbrev S2000000x1 : Shape := ⟨2, ![2000000, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128x64, .f32⟩
  | .hbm, ⟨3, _⟩ => ⟨S1000000x2, .i32⟩
  | .hbm, ⟨4, _⟩ => ⟨S1000000x2, .i32⟩
  | .hbm, ⟨5, _⟩ => ⟨S100000x128, .f32⟩
  | .hbm, ⟨6, _⟩ => ⟨S_, .f32⟩
  | .hbm, ⟨7, _⟩ => ⟨S100000x128, .f32⟩
  | .hbm, ⟨8, _⟩ => ⟨S100000x128, .f32⟩
  | .hbm, ⟨9, _⟩ => ⟨S100000x64, .f32⟩
  | .hbm, ⟨10, _⟩ => ⟨S1000000x1, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x1, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S1000000, .f32⟩
  | .hbm, ⟨35, _⟩ => ⟨S1000000x1, .f32⟩
  | .hbm, ⟨36, _⟩ => ⟨S1000000x1, .i32⟩
  | .hbm, ⟨37, _⟩ => ⟨S1000000, .i32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S1000000x1, .i32⟩
  | .hbm, ⟨48, _⟩ => ⟨S1000000, .i32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S1000000, .f32⟩
  | .hbm, ⟨61, _⟩ => ⟨S1000000x1, .f32⟩
  | .hbm, ⟨62, _⟩ => ⟨S2000000x1, .f32⟩
  | .hbm, ⟨63, _⟩ => ⟨S2000000x1, .f32⟩
  | .hbm, ⟨64, _⟩ => ⟨S2000000x1, .f32⟩
  | .hbm, ⟨65, _⟩ => ⟨S_, .f32⟩
  | .hbm, ⟨66, _⟩ => ⟨S2000000x1, .f32⟩
  | .hbm, ⟨67, _⟩ => ⟨S2000000x1, .f32⟩
  | .hbm, ⟨68, _⟩ => ⟨S_, .f32⟩
  | .hbm, ⟨69, _⟩ => ⟨S2000000x1, .f32⟩
  | .hbm, ⟨70, _⟩ => ⟨S2000000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  reducesTo_S1000000x64_S1000000_d1 : S1000000x64.ReducesTo [1] S1000000
  h_S_ : 0 < S_.numel
  concatenates_S1000000x1_S1000000x1_S2000000x1_d0 : Shape.Concatenates [S1000000x1, S1000000x1] S2000000x1 0
  bcast_S_S2000000x1 : S_.BroadcastsInDim S2000000x1 (![] : Fin 0 → Fin S2000000x1.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.Spec.lean ====
/-
  What both programs compute, as mathematics, and the integer facts about edge endpoints.

  Every node `a` gets an embedding row `emb a · = relu (X a · W) · W2` (64 numbers); an edge with endpoints `u, v`
  is scored `logistic (∑ k, emb u k * emb v k)`; the result lists the scores of the 1000000 true edges and then of the
  1000000 false ones. An endpoint is a signed 32-bit word: a negative word counts from the end of the 100000 nodes
  (`wrap`), and the row it names is the wrapped word read signed and clamped to the table (`node`). On the admitted
  range −100000 ≤ x < 100000 (`InRange`) the wrapped word already lies in [0, 99999].

  The kernel program pads each endpoint list from 1000000 to 1015808 entries with the word 0 and lays the true list
  before the false one: position `p` of that layout holds `src p`, and edge `e` of the result sits at `pos e`.
-/
import Idealize.ShloMosaic.PureOps.Ideal
import Idealize.ShloMosaic.Lib.ValueIdx
import proofs.«430457_j40699110097041_3_alg».proof.Proof.LibGatherRows

noncomputable section

open scoped BigOperators

namespace Cert.EdgeScores

open Idealize.ShloMosaic Idealize.ShloMosaic.ValueIdx

/-! ## Endpoint words -/

/-- A node index as both programs normalise it: a negative word counts from the end of the 100000 nodes. -/
def wrap (x : BitVec 32) : BitVec 32 := Scalar.select (IntOp.cmpi .slt x 0#32) (IntOp.addi x 100000#32) x

/-- The admitted range of an endpoint word: −100000 ≤ x < 100000 as signed integers (the word 4294867296 is −100000). -/
def InRange (x : BitVec 32) : Prop := IntOp.cmpi .sge x 4294867296#32 = 1#1 ∧ IntOp.cmpi .slt x 100000#32 = 1#1

/-- The row of the embedding table an endpoint word names: the wrapped word, read signed and clamped to the table. -/
def node (x : BitVec 32) : Fin 100000 := GatherRows.clampPos 100000 (by decide) (wrap x)

/-- A one-bit word made from a truth value is 1 exactly when the value is true. -/
theorem ofBool_eq_one (b : Bool) : BitVec.ofBool b = 1#1 ↔ b = true := by cases b <;> decide

/-- The signed "less than" compare answers 1 exactly when the signed values are so ordered. -/
theorem cmpi_slt_iff (x y : BitVec 32) : IntOp.cmpi .slt x y = 1#1 ↔ x.toInt < y.toInt := by
  show BitVec.ofBool (x.slt y) = 1#1 ↔ _
  rw [ofBool_eq_one, BitVec.slt_iff_toInt_lt]

/-- The signed "at most" compare answers 1 exactly when the signed values are so ordered. -/
theorem cmpi_sle_iff (x y : BitVec 32) : IntOp.cmpi .sle x y = 1#1 ↔ x.toInt ≤ y.toInt := by
  show BitVec.ofBool (x.sle y) = 1#1 ↔ _
  rw [ofBool_eq_one, BitVec.sle_iff_toInt_le]

/-- The signed "at least" compare answers 1 exactly when the signed values are so ordered. -/
theorem cmpi_sge_iff (x y : BitVec 32) : IntOp.cmpi .sge x y = 1#1 ↔ y.toInt ≤ x.toInt := by
  show BitVec.ofBool (y.sle x) = 1#1 ↔ _
  rw [ofBool_eq_one, BitVec.sle_iff_toInt_le]

/-- Adding 100000 to a word whose signed value is in [−100000, 0) does not wrap around. -/
theorem toInt_add_small (x : BitVec 32) (lo : -100000 ≤ x.toInt) (hi : x.toInt < 0) :
    (IntOp.addi x 100000#32).toInt = x.toInt + 100000 := by
  show (x + 100000#32).toInt = _
  rw [BitVec.toInt_add]
  have e2 : (100000#32 : BitVec 32).toInt = 100000 := by decide
  rw [e2]
  apply Int.bmod_eq_of_le <;> norm_num <;> omega

/-- The signed value of an admitted word lies in [−100000, 100000). -/
theorem toInt_of_inRange (x : BitVec 32) (h : InRange x) : -100000 ≤ x.toInt ∧ x.toInt < 100000 := by
  obtain ⟨h1, h2⟩ := h
  rw [cmpi_sge_iff] at h1
  rw [cmpi_slt_iff] at h2
  have e1 : (4294867296#32 : BitVec 32).toInt = -100000 := by decide
  have e2 : (100000#32 : BitVec 32).toInt = 100000 := by decide
  omega

/-- The signed value of the wrapped word: the word's own when it is not negative, 100000 more when it is. -/
theorem toInt_wrap (x : BitVec 32) (h : InRange x) :
    (wrap x).toInt = if x.toInt < 0 then x.toInt + 100000 else x.toInt := by
  obtain ⟨lo, hi⟩ := toInt_of_inRange x h
  have e0 : (0#32 : BitVec 32).toInt = 0 := by decide
  unfold wrap Scalar.select
  by_cases hneg : x.toInt < 0
  · have hc : IntOp.cmpi .slt x 0#32 = 1 := (cmpi_slt_iff x 0#32).mpr (by rw [e0]; exact hneg)
    rw [if_pos hc, if_pos hneg]
    exact toInt_add_small x lo hneg
  · have hc : ¬ IntOp.cmpi .slt x 0#32 = 1 := fun hc => hneg (by
      have := (cmpi_slt_iff x 0#32).mp hc; rwa [e0] at this)
    rw [if_neg hc, if_neg hneg]

/-- On the admitted range the wrapped word is a valid row: 0 ≤ wrap x. -/
theorem wrap_ge (x : BitVec 32) (h : InRange x) : IntOp.cmpi .sge (wrap x) 0#32 = 1#1 := by
  obtain ⟨lo, hi⟩ := toInt_of_inRange x h
  have hw := toInt_wrap x h
  have e0 : (0#32 : BitVec 32).toInt = 0 := by decide
  rw [cmpi_sge_iff, e0, hw]
  split <;> omega

/-- On the admitted range the wrapped word is a valid row: wrap x ≤ 99999. -/
theorem wrap_le (x : BitVec 32) (h : InRange x) : IntOp.cmpi .sle (wrap x) 99999#32 = 1#1 := by
  obtain ⟨lo, hi⟩ := toInt_of_inRange x h
  have hw := toInt_wrap x h
  have e0 : (99999#32 : BitVec 32).toInt = 99999 := by decide
  rw [cmpi_sle_iff, e0, hw]
  split <;> omega

/-- The zero word is admitted (the kernel pads its endpoint lists with it). -/
theorem inRange_zero : InRange 0#32 := ⟨by decide, by decide⟩

/-! ## The edge lists and the kernel's padded layout -/

/-- Endpoint `col` of edge `e` of the result: the true edges first, then the false ones. -/
def edge (E1 E2 : IVec ⟨2, ![1000000, 2]⟩ 32) (col : Fin 2) (e : Fin 2000000) : BitVec 32 :=
  if h : e.val < 1000000 then E1 (ix2 (⟨e.val, h⟩ : Fin 1000000) col)
  else E2 (ix2 (⟨e.val - 1000000, by omega⟩ : Fin 1000000) col)

/-- Where edge `e` sits in the kernel's layout: each list is padded to 1015808 entries. -/
def pos (e : Fin 2000000) : Fin 2031616 :=
  if h : e.val < 1000000 then ⟨e.val, by omega⟩ else ⟨e.val + 15808, by omega⟩

/-- The word at position `p` of the kernel's layout of endpoint `col`: the true list, 15808 zero words, the false
    list, 15808 zero words. -/
def src (E1 E2 : IVec ⟨2, ![1000000, 2]⟩ 32) (col : Fin 2) (p : Fin 2031616) : BitVec 32 :=
  if p.val < 1015808 then
    (if h : p.val < 1000000 then E1 (ix2 (⟨p.val, h⟩ : Fin 1000000) col) else 0#32)
  else
    (if h : p.val - 1015808 < 1000000 then E2 (ix2 (⟨p.val - 1015808, h⟩ : Fin 1000000) col) else 0#32)

/-- The layout holds edge `e`'s endpoint at `pos e`. -/
theorem src_pos (E1 E2 : IVec ⟨2, ![1000000, 2]⟩ 32) (col : Fin 2) (e : Fin 2000000) :
    src E1 E2 col (pos e) = edge E1 E2 col e := by
  have he := e.isLt
  unfold src pos edge
  by_cases h : e.val < 1000000
  · rw [dif_pos h, dif_pos h]
    have h1 : (⟨e.val, by omega⟩ : Fin 2031616).val < 1015808 := by show e.val < 1015808; omega
    rw [if_pos h1, dif_pos (show (⟨e.val, by omega⟩ : Fin 2031616).val < 1000000 from h)]
  · rw [dif_neg h, dif_neg h]
    have h1 : ¬ (⟨e.val + 15808, by omega⟩ : Fin 2031616).val < 1015808 := by show ¬ e.val + 15808 < 1015808; omega
    have h2 : (⟨e.val + 15808, by omega⟩ : Fin 2031616).val - 1015808 < 1000000 := by
      show e.val + 15808 - 1015808 < 1000000; omega
    rw [if_neg h1, dif_pos h2]
    refine congrArg E2 (congrArg (fun a => ix2 a col) (Fin.ext ?_))
    show e.val + 15808 - 1015808 = e.val - 1000000
    omega

/-- Every word of the layout is admitted when every endpoint is. -/
theorem src_inRange (E1 E2 : IVec ⟨2, ![1000000, 2]⟩ 32) (h1 : ∀ i, InRange (E1 i)) (h2 : ∀ i, InRange (E2 i))
    (col : Fin 2) (p : Fin 2031616) : InRange (src E1 E2 col p) := by
  unfold src
  split
  · split
    · exact h1 _
    · exact inRange_zero
  · split
    · exact h2 _
    · exact inRange_zero

/-! ## The values -/

/-- The embedding table: entry (a, b) of relu (X · W) · W2. -/
def emb (X : (⟨2, ![100000, 512]⟩ : Shape).Idx → EReal) (W : (⟨2, ![512, 128]⟩ : Shape).Idx → EReal)
    (W2 : (⟨2, ![128, 64]⟩ : Shape).Idx → EReal) (a : Fin 100000) (b : Fin 64) : EReal :=
  ∑ k : Fin 128, max (∑ l : Fin 512, X (ix2 a l) * W (ix2 l k)) 0 * W2 (ix2 k b)

/-- The score of an edge between rows `u` and `v` of a table: the logistic of their inner product. -/
def score (Z : Fin 100000 → Fin 64 → EReal) (u v : Fin 100000) : EReal :=
  Ideal.logistic (∑ k : Fin 64, Z u k * Z v k)

/-- The result: entry (e, 0) is the score of edge `e` between the rows its two endpoint words name. -/
def G (X : (⟨2, ![100000, 512]⟩ : Shape).Idx → EReal) (W : (⟨2, ![512, 128]⟩ : Shape).Idx → EReal)
    (W2 : (⟨2, ![128, 64]⟩ : Shape).Idx → EReal) (E1 E2 : IVec ⟨2, ![1000000, 2]⟩ 32) :
    (⟨2, ![2000000, 1]⟩ : Shape).Idx → EReal := fun i =>
  score (emb X W W2) (node (edge E1 E2 0 ⟨(i 0).val, idx2_lt0 i⟩)) (node (edge E1 E2 1 ⟨(i 0).val, idx2_lt0 i⟩))

end Cert.EdgeScores

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.EncodeValue.lean ====
/-
  The first launch: the embedding table. Each of the 25 grid points computes 4000 rows of relu (X · W) · W2 and writes
  them back as one block; together the blocks fill the table.
-/
import proofs.«430457_j40699110097041_3_alg».proof.Proof.Gen.KernelIdeal.Frame
import proofs.«430457_j40699110097041_3_alg».proof.Proof.Spec
import proofs.«430457_j40699110097041_3_alg».proof.Proof.LibPlainDot
import Idealize.ShloMosaic.Lib.Pipeline.Value

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

variable (V : (c : Dev nD) → (b : Ref sig .tc) → Buf (Elt Ideal) ((c : Thread nD τ).loc b))

/-! ## One block: 4000 rows of relu (x0 · x1) · x2 -/

/-- The body reads and writes each of its buffers from the origin. -/
theorem zero_offsets : (![0, 0] : Fin 2 → Nat) = fun _ => 0 := funext fun a => by fin_cases a <;> rfl

/-- Entry (r, b) of what the body stores: the product of x0 and x1 into a zero accumulator, its maximum with 0, and
    the product of that with x2 into a zero accumulator; each product at an entry is the familiar sum. -/
theorem pay_apply (x0 : FVec Ideal S4000x512 .f32) (x1 : FVec Ideal S512x128 .f32) (x2 : FVec Ideal S128x64 .f32)
    (r : Fin 4000) (b : Fin 64) :
    k0_pay1 (F := Ideal) x0 x1 x2 (ix2 r b)
      = ∑ k : Fin 128, max (∑ l : Fin 512, x0 (ix2 r l) * x1 (ix2 l k)) 0 * x2 (ix2 k b) := by
  unfold k0_pay1
  refine (Cert.LibPlainDot.matmul_zero_apply dot_S4000x128_S128x64_S4000x64_1_0_0_1_n_n rfl rfl rfl rfl rfl rfl none _
    x2 r b).trans ?_
  refine Finset.sum_congr rfl fun k _ => ?_
  refine congrArg (· * x2 (ix2 k b)) ?_
  refine (maximumf_apply _ _ (ix2 r k)).trans ?_
  refine congrArg₂ max ?_ ?_
  · exact Cert.LibPlainDot.matmul_zero_apply dot_S4000x512_S512x128_S4000x128_1_0_0_1_n_n rfl rfl rfl rfl rfl rfl none
      x0 x1 r k
  · exact Ideal.ofBits_zero_f32

/-! ## The whole table as one function of the three arrays -/

/-- The embedding table as an array: entry `i` is `emb` at the two coordinates of `i`. -/
abbrev table (X : S100000x512.Idx → EReal) (W : S512x128.Idx → EReal) (W2 : S128x64.Idx → EReal) :
    S100000x64.Idx → EReal :=
  fun i => emb X W W2 ⟨(i 0).val, idx2_lt0 i⟩ ⟨(i 1).val, idx2_lt1 i⟩

/-- When x0 is rows 4000 n … 4000 n + 3999 of X, x1 is W and x2 is W2, entry `j` of the stored block is the table's
    entry in row 4000 n + j 0 and column j 1. -/
theorem block_apply (X : S100000x512.Idx → EReal) (W : S512x128.Idx → EReal) (W2 : S128x64.Idx → EReal)
    (x0 : FVec Ideal S4000x512 .f32) (x1 : FVec Ideal S512x128 .f32) (x2 : FVec Ideal S128x64 .f32) (n : Nat)
    (h0 : ∀ (y : S4000x512.Idx) (k : S100000x512.Idx),
      (k 0).val = n * 4000 + (y 0).val → (k 1).val = (y 1).val → x0 y = X k)
    (h1 : x1 = W) (h2 : x2 = W2)
    (j : S4000x64.Idx) (i : S100000x64.Idx) (hi0 : (i 0).val = n * 4000 + (j 0).val) (hi1 : (i 1).val = (j 1).val) :
    k0_pay1 (F := Ideal) x0 x1 x2 j = table X W W2 i := by
  obtain ⟨r, b, rfl⟩ : ∃ (r : Fin 4000) (b : Fin 64), j = ix2 r b := ⟨j 0, j 1, eq_ix2 j⟩
  subst h1 h2
  rw [pay_apply]
  show _ = ∑ k : Fin 128, max (∑ l : Fin 512, X (ix2 ⟨(i 0).val, idx2_lt0 i⟩ l) * x1 (ix2 l k)) 0
    * x2 (ix2 k ⟨(i 1).val, idx2_lt1 i⟩)
  have hb : (⟨(i 1).val, idx2_lt1 i⟩ : Fin 64) = b := Fin.ext hi1
  rw [hb]
  refine Finset.sum_congr rfl fun k _ => ?_
  refine congrArg (fun z => max z 0 * x2 (ix2 k b)) ?_
  refine Finset.sum_congr rfl fun l _ => ?_
  refine congrArg (· * x1 (ix2 l k)) ?_
  exact h0 (ix2 r l) (ix2 ⟨(i 0).val, idx2_lt0 i⟩ l) hi0 rfl

/-! ## The blocks of the 25 points -/

/-- Where each window's block sits at point `t`: X and the table move down one block of rows per point; W and W2 are
    read whole at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the table of the three arrays the launch found: rows
    4000 t … 4000 t + 3999, all 64 columns. -/
theorem flushed_eq (c : Dev nD) (t : Fin cfg0.N) :
    (dat0 (F := Ideal) V c).flushed 3 t
      = ((cfg0.win 3).blk t).view.read (Elt Ideal) (table (V c main_arg0) (V c main_arg1) (V c main_arg2)) := by
  show (cfg0.win 3).cut (grid0.coords t) ((dat0 (F := Ideal) V c).after 3 t) = _
  rw [after0_3]
  unfold out0_3
  rw [View.canon_unit_zero zero_offsets]
  simp only [View.ld_unit_zero (S := S4000x512) zero_offsets, View.ld_unit_zero (S := S512x128) zero_offsets,
    View.ld_unit_zero (S := S128x64) zero_offsets]
  obtain ⟨e00, e01, e10, e11, e20, e21, e30, e31⟩ := block_indices t
  funext j
  show k0_pay1 (F := Ideal) (iblk0 V c 0 t) (iblk0 V c 1 t) (iblk0 V c 2 t) j
    = table (V c main_arg0) (V c main_arg1) (V c main_arg2) (((cfg0.win 3).blk t).view.emb j)
  refine block_apply (V c main_arg0) (V c main_arg1) (V c main_arg2) (iblk0 V c 0 t) (iblk0 V c 1 t) (iblk0 V c 2 t)
    t.val ?_ ?_ ?_ j (((cfg0.win 3).blk t).view.emb j) ?_ ?_
  · -- the block of X: row 4000 t + y 0, column y 1
    intro y k hk0 hk1
    show V c main_arg0 (((cfg0.win 0).blk t).view.emb y) = V c main_arg0 k
    have e : ((cfg0.win 0).blk t).view.emb y = k := by
      funext a; apply Fin.ext
      match a with
      | ⟨0, _⟩ => show win0_0.index t (0 : Fin 2) * 4000 + 1 * (y 0).val = (k 0).val; omega
      | ⟨1, _⟩ => show win0_0.index t (1 : Fin 2) * 512 + 1 * (y 1).val = (k 1).val; omega
    rw [e]
  · -- the block of W is W
    funext y
    show V c main_arg1 (((cfg0.win 1).blk t).view.emb y) = V c main_arg1 y
    have e : ((cfg0.win 1).blk t).view.emb y = y := by
      funext a; apply Fin.ext
      match a with
      | ⟨0, _⟩ => show win0_1.index t (0 : Fin 2) * 512 + 1 * (y 0).val = (y 0).val; omega
      | ⟨1, _⟩ => show win0_1.index t (1 : Fin 2) * 128 + 1 * (y 1).val = (y 1).val; omega
    rw [e]
  · -- the block of W2 is W2
    funext y
    show V c main_arg2 (((cfg0.win 2).blk t).view.emb y) = V c main_arg2 y
    have e : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 64 + 1 * (y 1).val = (y 1).val; omega
    rw [e]
  · show win0_3.index t (0 : Fin 2) * 4000 + 1 * (j 0).val = t.val * 4000 + (j 0).val; omega
  · show win0_3.index t (1 : Fin 2) * 64 + 1 * (j 1).val = (j 1).val; omega

/-! ## The blocks fill the table -/

/-- An index of the table is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v0).slice (win0_3.rect t)).set ↔ _
  rw [View.set_slice_whole, Rect.mem_set_unit]
  exact Iff.rfl

/-- Each of the 25 row blocks is some point's. -/
theorem point_of_block (q : Fin 25) : ∃ t : Fin cfg0.N, t.val = q.val :=
  ⟨⟨q.val, by rw [show cfg0.N = 25 from N_0]; exact q.isLt⟩, rfl⟩

/-- After the launch the output array is the table: row `r` lies in the block of point `r / 4000`. -/
theorem table_array (c : Dev nD) :
    (dat0 (F := Ideal) V c).arrAt 3 cfg0.N = table (V c main_arg0) (V c main_arg1) (V c main_arg2) := by
  refine (dat0 (F := Ideal) V c).arrAt_eq_of_cover 3 (table (V c main_arg0) (V c main_arg1) (V c main_arg2))
    (fun t _ => flushed_eq V c t) fun i => ?_
  have hi0 : (i 0).val < 100000 := (i 0).isLt
  have hi1 : (i 1).val < 64 := (i 1).isLt
  obtain ⟨t, ht⟩ := point_of_block ⟨(i 0).val / 4000, by omega⟩
  have ht' : t.val = (i 0).val / 4000 := ht
  obtain ⟨e00, e01, e10, e11, e20, e21, e30, e31⟩ := block_indices t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

/-- After the first launch its output array holds the embedding table of the three arrays the launch found. -/
theorem table_eq (c : Dev nD) (a : Fin 100000) (b : Fin 64) :
    (dat0 (F := Ideal) V c).arrAt 3 cfg0.N (ix2 a b) = emb (V c main_arg0) (V c main_arg1) (V c main_arg2) a b := by
  rw [table_array]

end Cert.KernelIdeal.EdgeValue

end
-- ==== Proof.DecodeValue.lean ====
/-
  The second launch: the scores. Each of the 124 grid points takes 16384 pairs of gathered rows, multiplies them
  entry by entry, sums each row's 64 products and applies the logistic function; the 16384 results are one block of
  the one-row output.
-/
import proofs.«430457_j40699110097041_3_alg».proof.Proof.Gen.KernelIdeal.Frame
import proofs.«430457_j40699110097041_3_alg».proof.Proof.Spec
import Idealize.ShloMosaic.Lib.Pipeline.Value
import Idealize.ShloMosaic.PureOps.Ideal.Laws

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

variable (V : (c : Dev nD) → (b : Ref sig .tc) → Buf (Elt Ideal) ((c : Thread nD τ).loc b))

/-- The first gathered array as the second launch finds it, at its literal type. -/
abbrev rowsL (c : Dev nD) : S2031616x64.Idx → EReal := V c main_v15
/-- The second gathered array as the second launch finds it, at its literal type. -/
abbrev rowsR (c : Dev nD) : S2031616x64.Idx → EReal := V c main_v16

/-- The index the lane sum inserts: row q of the block with lane k. -/
theorem decode_lift_row (h : S16384x64.Reduces [1] S16384) (q : Fin 16384) (k : Fin 64) :
    h.lift (ix1 q) k = ix2 q k := by
  funext a
  apply Fin.ext
  match a with
  | ⟨0, _⟩ => rfl
  | ⟨1, _⟩ => rfl

/-- A one-row array read at column q is the vector it was cast from, read at q. -/
theorem decode_row_cast (v : S16384.Idx → EReal) (h : S16384.ShapeCasts S1x16384) (q : Fin 16384) :
    shapeCast S1x16384 v h (ix2 (0 : Fin 1) q) = v (ix1 q) := by
  refine (shapeCast_addUnit_apply ![16384] v h (ix2 (0 : Fin 1) q)).trans ?_
  refine congrArg v ?_
  funext a
  apply Fin.ext
  match a with
  | ⟨0, _⟩ => rfl

/-- What one grid point computes at entry q of its block: the logistic of the inner product of row q of its two
    input blocks. -/
theorem decode_pay_apply (x0 x1 : Vec Ideal S16384x64 .f32) (q : Fin 16384) :
    k1_pay1 x0 x1 (ix2 (0 : Fin 1) q) = Ideal.logistic (∑ k : Fin 64, x0 (ix2 q k) * x1 (ix2 q k)) := by
  unfold k1_pay1
  dsimp only
  rw [shapeCast_self, shapeCast_self]
  refine (decode_row_cast _ _ q).trans ?_
  unfold logistic
  rw [Ideal.logistic_def]
  refine congrArg Ideal.logistic ?_
  refine (Ideal.multiReduction_add_single _ _ _ _ _ (ix1 q)).trans ?_
  show ∑ k : Fin 64, mulf (F := Ideal) (φ := .f32) x0 x1 (reduces_S16384x64_S16384.lift (ix1 q) k) = _
  refine Finset.sum_congr rfl fun k _ => ?_
  exact (congrArg (mulf (F := Ideal) (φ := .f32) x0 x1) (decode_lift_row reduces_S16384x64_S16384 q k)).trans rfl

theorem decode_zero_off : (![0, 0] : Fin 2 → Nat) = fun _ => 0 := funext fun a => by fin_cases a <;> rfl

/-- The one-row array of scores of two arrays of rows: entry (·, p) is the logistic of the inner product of their
    rows p. -/
def decodeScores (a0 a1 : S2031616x64.Idx → EReal) : S1x2031616.Idx → EReal := fun i =>
  Ideal.logistic (∑ k : Fin 64, a0 (ix2 (⟨(i 1).val, idx2_lt1 i⟩ : Fin 2031616) k)
    * a1 (ix2 (⟨(i 1).val, idx2_lt1 i⟩ : Fin 2031616) k))

/-- The windows' index maps over the 124 grid points: point t takes row block t of each input and column block t of the
    output. -/
theorem decode_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- A block of scores against the whole array of scores: if the two input blocks are rows n·16384 … of the two
    arrays, the block's entry j is the array's entry at column n·16384 + j. -/
theorem decode_block_score (x0 x1 : Vec Ideal S16384x64 .f32) (a0 a1 : S2031616x64.Idx → EReal) (n : Nat)
    (j : S1x16384.Idx) (i : S1x2031616.Idx) (hi : (i 1).val = n * 16384 + (j 1).val)
    (h0 : ∀ (q : Fin 16384) (k : Fin 64) (r : Fin 2031616), r.val = n * 16384 + q.val → x0 (ix2 q k) = a0 (ix2 r k))
    (h1 : ∀ (q : Fin 16384) (k : Fin 64) (r : Fin 2031616), r.val = n * 16384 + q.val → x1 (ix2 q k) = a1 (ix2 r k)) :
    k1_pay1 x0 x1 j = decodeScores a0 a1 i := by
  obtain ⟨z, q, rfl⟩ : ∃ (z : Fin 1) (q : Fin 16384), j = ix2 z q := ⟨j 0, j 1, eq_ix2 j⟩
  obtain rfl : z = 0 := Subsingleton.elim _ _
  rw [decode_pay_apply]
  unfold decodeScores
  refine congrArg Ideal.logistic (Finset.sum_congr rfl fun k _ => ?_)
  rw [h0 q k ⟨(i 1).val, idx2_lt1 i⟩ hi, h1 q k ⟨(i 1).val, idx2_lt1 i⟩ hi]

/-- What point t writes back is block t of the array of scores of the two gathered arrays. -/
theorem decode_flushed_eq (c : Dev nD) (t : Fin cfg1.N) :
    (dat1 (F := Ideal) V c).flushed 2 t
      = ((cfg1.win 2).blk t).view.read (Elt Ideal) (decodeScores (rowsL V c) (rowsR V c)) := by
  show (cfg1.win 2).cut (grid1.coords t) ((dat1 (F := Ideal) V c).after 2 t) = _
  rw [after1_2]
  unfold out1_2
  rw [View.canon_unit_zero decode_zero_off]
  simp only [View.ld_unit_zero (S := S16384x64) decode_zero_off]
  obtain ⟨e0, e1, e2, e3, e4, e5⟩ := decode_idx_facts t
  funext j
  show k1_pay1 (iblk1 V c 0 t) (iblk1 V c 1 t) j
    = decodeScores (rowsL V c) (rowsR V c) (((cfg1.win 2).blk t).view.emb j)
  refine decode_block_score (iblk1 V c 0 t) (iblk1 V c 1 t) (rowsL V c) (rowsR V c) t.val j
    (((cfg1.win 2).blk t).view.emb j) ?_ ?_ ?_
  · show win1_2.index t (1 : Fin 2) * 16384 + 1 * (j 1).val = t.val * 16384 + (j 1).val
    rw [e5]; omega
  · intro q k r hr
    show V c main_v15 (((cfg1.win 0).blk t).view.emb (ix2 q k)) = V c main_v15 (ix2 r k)
    refine congrArg (V c main_v15) ?_
    funext a
    apply Fin.ext
    match a with
    | ⟨0, _⟩ => show win1_0.index t (0 : Fin 2) * 16384 + 1 * q.val = r.val; rw [e0, hr]; omega
    | ⟨1, _⟩ => show win1_0.index t (1 : Fin 2) * 64 + 1 * k.val = k.val; rw [e1]; omega
  · intro q k r hr
    show V c main_v16 (((cfg1.win 1).blk t).view.emb (ix2 q k)) = V c main_v16 (ix2 r k)
    refine congrArg (V c main_v16) ?_
    funext a
    apply Fin.ext
    match a with
    | ⟨0, _⟩ => show win1_1.index t (0 : Fin 2) * 16384 + 1 * q.val = r.val; rw [e2, hr]; omega
    | ⟨1, _⟩ => show win1_1.index t (1 : Fin 2) * 64 + 1 * k.val = k.val; rw [e3]; omega

/-- An index of the output array is in point t's block iff each coordinate is in the block's range on its axis. -/
theorem decode_mem_blk (t : Fin cfg1.N) (i : S1x2031616.Idx) :
    i ∈ ((cfg1.win 2).blk t).view.set ↔ ∀ a : Fin 2, win1_2.index t a * S1x16384.size a ≤ (i a).val
      ∧ (i a).val < win1_2.index t a * S1x16384.size a + S1x16384.size a := by
  show i ∈ ((View.whole main_v17).slice (win1_2.rect t)).set ↔ _
  rw [View.set_slice_whole, Rect.mem_set_unit]
  exact Iff.rfl

/-- Every column p of the output lies in the block of point p / 16384, which writes back. -/
theorem decode_cover (i : S1x2031616.Idx) :
    ∃ t : Fin cfg1.N, (cfg1.win 2).flush t = true ∧ i ∈ ((cfg1.win 2).blk t).view.set := by
  have h0 : (i 0).val < 1 := idx2_lt0 i
  have h1 : (i 1).val < 2031616 := idx2_lt1 i
  have hN : cfg1.N = 124 := N_1
  obtain ⟨t, ht⟩ : ∃ t : Fin cfg1.N, t.val = (i 1).val / 16384 := ⟨⟨(i 1).val / 16384, by rw [hN]; omega⟩, rfl⟩
  obtain ⟨e0, e1, e2, e3, e4, e5⟩ := decode_idx_facts t
  refine ⟨t, flush1_2 t, ?_⟩
  rw [decode_mem_blk]
  intro a
  match a with
  | ⟨0, _⟩ =>
    show win1_2.index t (0 : Fin 2) * 1 ≤ (i 0).val ∧ (i 0).val < win1_2.index t (0 : Fin 2) * 1 + 1
    rw [e4]; omega
  | ⟨1, _⟩ =>
    show win1_2.index t (1 : Fin 2) * 16384 ≤ (i 1).val ∧ (i 1).val < win1_2.index t (1 : Fin 2) * 16384 + 16384
    rw [e5, ht]; omega

/-- After the second launch its output array is the array of scores of the two gathered arrays. -/
theorem decode_scoreArr (c : Dev nD) :
    (dat1 (F := Ideal) V c).arrAt 2 cfg1.N = decodeScores (rowsL V c) (rowsR V c) :=
  (dat1 (F := Ideal) V c).arrAt_eq_of_cover 2 (decodeScores (rowsL V c) (rowsR V c))
    (fun t _ => decode_flushed_eq V c t) decode_cover

/-- After the second launch, entry `p` of its one-row output is the logistic of the inner product of row `p` of the
    two gathered arrays the launch found. -/
theorem scores_eq (c : Dev nD) (p : Fin 2031616) :
    (dat1 (F := Ideal) V c).arrAt 2 cfg1.N (ix2 (0 : Fin 1) p)
      = Ideal.logistic (∑ k : Fin 64, rowsL V c (ix2 p k) * rowsR V c (ix2 p k)) := by
  rw [decode_scoreArr]
  rfl

end Cert.KernelIdeal.EdgeValue

end
-- ==== Proof.MidIndex.lean ====
/-
  Between the launches, the endpoint lists: each column of the two edge arrays is cut out, padded with zero words from
  1000000 to 1015808 entries, and the true list is laid before the false one.
-/
import proofs.«430457_j40699110097041_3_alg».proof.Proof.Gen.KernelIdeal.Frame
import proofs.«430457_j40699110097041_3_alg».proof.Proof.Spec
import Idealize.ShloMosaic.Lib.Pipeline.Value
import Idealize.ShloMosaic.Lib.KernelVsHost

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

variable (m : (ℓ : Loc nD τ sig) → Buf (Elt Ideal) ℓ) (ρ : Dev nD → PrngReg)

/-! ## The layout operations at an index -/

/-- A column of an edge array, cut out and flattened: entry `q` is the array's entry `(q, col)`. -/
theorem column_apply (E : IVec ⟨2, ![1000000, 2]⟩ 32) (col : Fin 2) (off : Fin 2 → Nat) (hoff0 : off 0 = 0)
    (hoff1 : off 1 = col.val) (hs : S1000000x2.Slices off S1000000x1) (q : Fin 1000000) :
    shapeCast S1000000 (extractStridedSlice S1000000x1 off E hs) shapeCasts_S1000000x1_S1000000 (ix1 q)
      = E (ix2 q col) := by
  generalize hy : extractStridedSlice S1000000x1 off E hs = y
  rw [shapeCast_apply y shapeCasts_S1000000x1_S1000000 (ix1 q) (ix2 q (0 : Fin 1))
    (by rewrite [Shape.rowMajor_val_two, Shape.rowMajor_val_one]; show q.val * 1 + 0 = q.val; omega)]
  subst hy
  exact extractStridedSlice_apply off E hs (ix2 q (0 : Fin 1)) (ix2 q col) (fun a => match a with
    | ⟨0, _⟩ => by show q.val = off 0 + q.val; omega
    | ⟨1, _⟩ => by show col.val = off 1 + 0; omega)

/-- A list of 1000000 words padded at the end to 1015808: the list's own entry below 1000000, the padding word after. -/
theorem padded_apply (x : IVec ⟨1, ![1000000]⟩ 32) (v : IVec ⟨0, ![]⟩ 32) (r : Fin 1015808) :
    pad S1015808 ![0] ![15808] ![0] x v pads_S1000000_S1015808_0158080 h_S_ (ix1 r)
      = if h : r.val < 1000000 then x (ix1 (⟨r.val, h⟩ : Fin 1000000)) else v (Shape.Idx.first h_S_) := by
  by_cases h : r.val < 1000000
  · rw [dif_pos h]
    exact pad_apply_of_inside ![0] ![15808] ![0] x v pads_S1000000_S1015808_0158080 h_S_ (ix1 r)
      (ix1 (⟨r.val, h⟩ : Fin 1000000)) (fun a => match a with
        | ⟨0, _⟩ => by show r.val = 0 + r.val * (0 + 1); omega)
  · rw [dif_neg h]
    exact pad_apply_of_not_inside ![0] ![15808] ![0] x v pads_S1000000_S1015808_0158080 h_S_ (ix1 r) (0 : Fin 1)
      (by show ¬(0 ≤ r.val ∧ (r.val - 0) % (0 + 1) = 0 ∧ (r.val - 0) / (0 + 1) < 1000000); omega)

/-- Two lists of 1015808 words laid end to end: the first list's entry below 1015808, the second's after. -/
theorem joined_apply (a b : IVec ⟨1, ![1015808]⟩ 32) (p : Fin 2031616) :
    concatenate S2031616 0 [⟨S1015808, a⟩, ⟨S1015808, b⟩] concatenates_S1015808_S1015808_S2031616_d0 (ix1 p)
      = if h : p.val < 1015808 then a (ix1 (⟨p.val, h⟩ : Fin 1015808))
        else b (ix1 (⟨p.val - 1015808, by have := p.isLt; omega⟩ : Fin 1015808)) := by
  by_cases h : p.val < 1015808
  · rw [dif_pos h]
    exact concatenate_pair_apply_left (0 : Fin 1) a b concatenates_S1015808_S1015808_S2031616_d0 (ix1 p) rfl
      (ix1 (⟨p.val, h⟩ : Fin 1015808)) (fun c => match c with | ⟨0, _⟩ => rfl)
  · rw [dif_neg h]
    exact concatenate_pair_apply_right (0 : Fin 1) a b concatenates_S1015808_S1015808_S2031616_d0 (ix1 p) rfl rfl
      (ix1 (⟨p.val - 1015808, by have := p.isLt; omega⟩ : Fin 1015808))
      (fun c hc => absurd (Subsingleton.elim _ _) hc)
      (by show p.val - 1015808 + 1015808 = p.val; omega)

/-- One endpoint list as the program makes it: a column of an edge array, flattened, and padded with the zero word. -/
def paddedColumn (E : IVec ⟨2, ![1000000, 2]⟩ 32) (off : Fin 2 → Nat) (hs : S1000000x2.Slices off S1000000x1) :
    IVec ⟨1, ![1015808]⟩ 32 :=
  pad S1015808 ![0] ![15808] ![0]
    (shapeCast S1000000 (extractStridedSlice S1000000x1 off E hs) shapeCasts_S1000000x1_S1000000)
    (constantI S_ 32 0#32) pads_S1000000_S1015808_0158080 h_S_

/-- Entry `r` of a padded column: the array's entry `(r, col)` below 1000000, the zero word after. -/
theorem paddedColumn_apply (E : IVec ⟨2, ![1000000, 2]⟩ 32) (col : Fin 2) (off : Fin 2 → Nat) (hoff0 : off 0 = 0)
    (hoff1 : off 1 = col.val) (hs : S1000000x2.Slices off S1000000x1) (r : Fin 1015808) :
    paddedColumn E off hs (ix1 r)
      = if h : r.val < 1000000 then E (ix2 (⟨r.val, h⟩ : Fin 1000000) col) else 0#32 := by
  unfold paddedColumn
  rw [padded_apply]
  by_cases h : r.val < 1000000
  · rw [dif_pos h, dif_pos h]
    exact column_apply E col off hoff0 hoff1 hs ⟨r.val, h⟩
  · rw [dif_neg h, dif_neg h]
    rfl

/-- The two lists laid end to end, at position `p`, are the layout `src`. -/
theorem joined_paddedColumns_apply (E1 E2 : IVec ⟨2, ![1000000, 2]⟩ 32) (col : Fin 2) (off : Fin 2 → Nat)
    (hoff0 : off 0 = 0) (hoff1 : off 1 = col.val) (hs : S1000000x2.Slices off S1000000x1) (p : Fin 2031616) :
    concatenate S2031616 0 [⟨S1015808, paddedColumn E1 off hs⟩, ⟨S1015808, paddedColumn E2 off hs⟩]
        concatenates_S1015808_S1015808_S2031616_d0 (ix1 p)
      = src E1 E2 col p := by
  rw [joined_apply]
  unfold src
  by_cases h : p.val < 1015808
  · rw [dif_pos h, if_pos h]
    exact paddedColumn_apply E1 col off hoff0 hoff1 hs ⟨p.val, h⟩
  · rw [dif_neg h, if_neg h]
    exact paddedColumn_apply E2 col off hoff0 hoff1 hs ⟨p.val - 1015808, by have := p.isLt; omega⟩

/-! ## Each stretch, from any contents `V` before it -/

section Stretches
variable (V : Valuation τ sig (Elt Ideal))

/-- The cut: column 0 of the first edge array, flattened. -/
theorem cut_v2 : StableHlo.after hostOps1 V (Proc.devRef .tc main_v2)
    = shapeCast S1000000 (extractStridedSlice S1000000x1 ![0, 0] (V (Proc.devRef .tc main_arg3))
        slices_S1000000x2_S1000000x1_0_0) shapeCasts_S1000000x1_S1000000 := by
  after_results
  rfl

/-- The cut: column 1 of the first edge array, flattened. -/
theorem cut_v4 : StableHlo.after hostOps1 V (Proc.devRef .tc main_v4)
    = shapeCast S1000000 (extractStridedSlice S1000000x1 ![0, 1] (V (Proc.devRef .tc main_arg3))
        slices_S1000000x2_S1000000x1_0_1) shapeCasts_S1000000x1_S1000000 := by
  after_results
  rfl

/-- The cut: column 0 of the second edge array, flattened. -/
theorem cut_v6 : StableHlo.after hostOps1 V (Proc.devRef .tc main_v6)
    = shapeCast S1000000 (extractStridedSlice S1000000x1 ![0, 0] (V (Proc.devRef .tc main_arg4))
        slices_S1000000x2_S1000000x1_0_0) shapeCasts_S1000000x1_S1000000 := by
  after_results
  rfl

/-- The cut: column 1 of the second edge array, flattened. -/
theorem cut_v8 : StableHlo.after hostOps1 V (Proc.devRef .tc main_v8)
    = shapeCast S1000000 (extractStridedSlice S1000000x1 ![0, 1] (V (Proc.devRef .tc main_arg4))
        slices_S1000000x2_S1000000x1_0_1) shapeCasts_S1000000x1_S1000000 := by
  after_results
  rfl

/-- The padding word made with the cut is the zero word. -/
theorem cut_c : StableHlo.after hostOps1 V (Proc.devRef .tc main_c) = constantI S_ 32 0#32 := by
  after_results

/-- The padding word made again before the second pad is the zero word. -/
theorem zero_c0 : StableHlo.after hostOps1_2 V (Proc.devRef .tc main_c_0) = constantI S_ 32 0#32 := by
  after_results

/-- The padding word made again before the third pad is the zero word. -/
theorem zero_c1 : StableHlo.after hostOps1_4 V (Proc.devRef .tc main_c_1) = constantI S_ 32 0#32 := by
  after_results

/-- The padding word made again before the fourth pad is the zero word. -/
theorem zero_c2 : StableHlo.after hostOps1_6 V (Proc.devRef .tc main_c_2) = constantI S_ 32 0#32 := by
  after_results

/-- The first pad. -/
theorem pad_v9 : StableHlo.after hostOps1_1 V (Proc.devRef .tc main_v9)
    = pad S1015808 ![0] ![15808] ![0] (V (Proc.devRef .tc main_v2)) (V (Proc.devRef .tc main_c))
        pads_S1000000_S1015808_0158080 h_S_ := by
  after_results
  rfl

/-- The second pad. -/
theorem pad_v10 : StableHlo.after hostOps1_3 V (Proc.devRef .tc main_v10)
    = pad S1015808 ![0] ![15808] ![0] (V (Proc.devRef .tc main_v4)) (V (Proc.devRef .tc main_c_0))
        pads_S1000000_S1015808_0158080 h_S_ := by
  after_results
  rfl

/-- The third pad. -/
theorem pad_v11 : StableHlo.after hostOps1_5 V (Proc.devRef .tc main_v11)
    = pad S1015808 ![0] ![15808] ![0] (V (Proc.devRef .tc main_v6)) (V (Proc.devRef .tc main_c_1))
        pads_S1000000_S1015808_0158080 h_S_ := by
  after_results
  rfl

/-- The fourth pad. -/
theorem pad_v12 : StableHlo.after hostOps1_7 V (Proc.devRef .tc main_v12)
    = pad S1015808 ![0] ![15808] ![0] (V (Proc.devRef .tc main_v8)) (V (Proc.devRef .tc main_c_2))
        pads_S1000000_S1015808_0158080 h_S_ := by
  after_results
  rfl

/-- The join of the first endpoints' lists. -/
theorem join_v13 : StableHlo.after hostOps1_8 V (Proc.devRef .tc main_v13)
    = concatenate S2031616 0 [⟨S1015808, V (Proc.devRef .tc main_v9)⟩, ⟨S1015808, V (Proc.devRef .tc main_v11)⟩]
        concatenates_S1015808_S1015808_S2031616_d0 := by
  after_results

/-- The join of the second endpoints' lists. -/
theorem join_v14 : StableHlo.after hostOps1_8 V (Proc.devRef .tc main_v14)
    = concatenate S2031616 0 [⟨S1015808, V (Proc.devRef .tc main_v10)⟩, ⟨S1015808, V (Proc.devRef .tc main_v12)⟩]
        concatenates_S1015808_S1015808_S2031616_d0 := by
  after_results

end Stretches

/-! ## The buffers through the host stretches -/

/-- A buffer that no operation of a stretch writes keeps its contents over the stretch. -/
local macro "kept" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide))))

/-- The first edge array is as the launch finds it when the columns are cut. -/
theorem arg3_W1 (c : Dev nD) :
    W1 (F := Ideal) m ρ c (Proc.devRef .tc main_arg3) = m ((c : Thread nD τ).loc main_arg3) :=
  (W1_of_ne m ρ c main_arg3 (by decide)).trans rfl

/-- The second edge array is as the launch finds it when the columns are cut. -/
theorem arg4_W1 (c : Dev nD) :
    W1 (F := Ideal) m ρ c (Proc.devRef .tc main_arg4) = m ((c : Thread nD τ).loc main_arg4) :=
  (W1_of_ne m ρ c main_arg4 (by decide)).trans rfl

/-- Column 0 of the first edge array, flattened. -/
theorem v2_W2 (c : Dev nD) :
    W2 (F := Ideal) m ρ c (Proc.devRef .tc main_v2)
      = shapeCast S1000000 (extractStridedSlice S1000000x1 ![0, 0] (m ((c : Thread nD τ).loc main_arg3))
          slices_S1000000x2_S1000000x1_0_0) shapeCasts_S1000000x1_S1000000 := by
  refine (cut_v2 (W1 (F := Ideal) m ρ c)).trans ?_
  rw [arg3_W1]

/-- Column 1 of the first edge array, flattened. -/
theorem v4_W2 (c : Dev nD) :
    W2 (F := Ideal) m ρ c (Proc.devRef .tc main_v4)
      = shapeCast S1000000 (extractStridedSlice S1000000x1 ![0, 1] (m ((c : Thread nD τ).loc main_arg3))
          slices_S1000000x2_S1000000x1_0_1) shapeCasts_S1000000x1_S1000000 := by
  refine (cut_v4 (W1 (F := Ideal) m ρ c)).trans ?_
  rw [arg3_W1]

/-- Column 0 of the second edge array, flattened. -/
theorem v6_W2 (c : Dev nD) :
    W2 (F := Ideal) m ρ c (Proc.devRef .tc main_v6)
      = shapeCast S1000000 (extractStridedSlice S1000000x1 ![0, 0] (m ((c : Thread nD τ).loc main_arg4))
          slices_S1000000x2_S1000000x1_0_0) shapeCasts_S1000000x1_S1000000 := by
  refine (cut_v6 (W1 (F := Ideal) m ρ c)).trans ?_
  rw [arg4_W1]

/-- Column 1 of the second edge array, flattened. -/
theorem v8_W2 (c : Dev nD) :
    W2 (F := Ideal) m ρ c (Proc.devRef .tc main_v8)
      = shapeCast S1000000 (extractStridedSlice S1000000x1 ![0, 1] (m ((c : Thread nD τ).loc main_arg4))
          slices_S1000000x2_S1000000x1_0_1) shapeCasts_S1000000x1_S1000000 := by
  refine (cut_v8 (W1 (F := Ideal) m ρ c)).trans ?_
  rw [arg4_W1]

/-- The padding word of the first pad is the zero word. -/
theorem c_W2 (c : Dev nD) :
    W2 (F := Ideal) m ρ c (Proc.devRef .tc main_c) = constantI S_ 32 0#32 :=
  cut_c (W1 (F := Ideal) m ρ c)

/-- The padding word of the second pad is the zero word. -/
theorem c0_W4 (c : Dev nD) :
    W4 (F := Ideal) m ρ c (Proc.devRef .tc main_c_0) = constantI S_ 32 0#32 :=
  zero_c0 (W3 (F := Ideal) m ρ c)

/-- The padding word of the third pad is the zero word. -/
theorem c1_W6 (c : Dev nD) :
    W6 (F := Ideal) m ρ c (Proc.devRef .tc main_c_1) = constantI S_ 32 0#32 :=
  zero_c1 (W5 (F := Ideal) m ρ c)

/-- The padding word of the fourth pad is the zero word. -/
theorem c2_W8 (c : Dev nD) :
    W8 (F := Ideal) m ρ c (Proc.devRef .tc main_c_2) = constantI S_ 32 0#32 :=
  zero_c2 (W7 (F := Ideal) m ρ c)

/-- The first pad: column 0 of the first edge array, padded. -/
theorem v9_W3 (c : Dev nD) :
    W3 (F := Ideal) m ρ c (Proc.devRef .tc main_v9)
      = paddedColumn (m ((c : Thread nD τ).loc main_arg3)) ![0, 0] slices_S1000000x2_S1000000x1_0_0 := by
  refine (pad_v9 (W2 (F := Ideal) m ρ c)).trans ?_
  rw [v2_W2, c_W2]
  rfl

/-- The second pad: column 1 of the first edge array, padded. -/
theorem v10_W5 (c : Dev nD) :
    W5 (F := Ideal) m ρ c (Proc.devRef .tc main_v10)
      = paddedColumn (m ((c : Thread nD τ).loc main_arg3)) ![0, 1] slices_S1000000x2_S1000000x1_0_1 := by
  have k : W4 (F := Ideal) m ρ c (Proc.devRef .tc main_v4) = W2 (F := Ideal) m ρ c (Proc.devRef .tc main_v4) :=
    calc W4 (F := Ideal) m ρ c (Proc.devRef .tc main_v4)
      _ = W3 m ρ c (Proc.devRef .tc main_v4) := by kept hostOps1_2
      _ = W2 m ρ c (Proc.devRef .tc main_v4) := by kept hostOps1_1
  refine (pad_v10 (W4 (F := Ideal) m ρ c)).trans ?_
  rw [k, v4_W2, c0_W4]
  rfl

/-- The third pad: column 0 of the second edge array, padded. -/
theorem v11_W7 (c : Dev nD) :
    W7 (F := Ideal) m ρ c (Proc.devRef .tc main_v11)
      = paddedColumn (m ((c : Thread nD τ).loc main_arg4)) ![0, 0] slices_S1000000x2_S1000000x1_0_0 := by
  have k : W6 (F := Ideal) m ρ c (Proc.devRef .tc main_v6) = W2 (F := Ideal) m ρ c (Proc.devRef .tc main_v6) :=
    calc W6 (F := Ideal) m ρ c (Proc.devRef .tc main_v6)
      _ = W5 m ρ c (Proc.devRef .tc main_v6) := by kept hostOps1_4
      _ = W4 m ρ c (Proc.devRef .tc main_v6) := by kept hostOps1_3
      _ = W3 m ρ c (Proc.devRef .tc main_v6) := by kept hostOps1_2
      _ = W2 m ρ c (Proc.devRef .tc main_v6) := by kept hostOps1_1
  refine (pad_v11 (W6 (F := Ideal) m ρ c)).trans ?_
  rw [k, v6_W2, c1_W6]
  rfl

/-- The fourth pad: column 1 of the second edge array, padded. -/
theorem v12_W9 (c : Dev nD) :
    W9 (F := Ideal) m ρ c (Proc.devRef .tc main_v12)
      = paddedColumn (m ((c : Thread nD τ).loc main_arg4)) ![0, 1] slices_S1000000x2_S1000000x1_0_1 := by
  have k : W8 (F := Ideal) m ρ c (Proc.devRef .tc main_v8) = W2 (F := Ideal) m ρ c (Proc.devRef .tc main_v8) :=
    calc W8 (F := Ideal) m ρ c (Proc.devRef .tc main_v8)
      _ = W7 m ρ c (Proc.devRef .tc main_v8) := by kept hostOps1_6
      _ = W6 m ρ c (Proc.devRef .tc main_v8) := by kept hostOps1_5
      _ = W5 m ρ c (Proc.devRef .tc main_v8) := by kept hostOps1_4
      _ = W4 m ρ c (Proc.devRef .tc main_v8) := by kept hostOps1_3
      _ = W3 m ρ c (Proc.devRef .tc main_v8) := by kept hostOps1_2
      _ = W2 m ρ c (Proc.devRef .tc main_v8) := by kept hostOps1_1
  refine (pad_v12 (W8 (F := Ideal) m ρ c)).trans ?_
  rw [k, v8_W2, c2_W8]
  rfl

/-- The first padded list is still there when the lists are joined. -/
theorem v9_W9 (c : Dev nD) :
    W9 (F := Ideal) m ρ c (Proc.devRef .tc main_v9)
      = paddedColumn (m ((c : Thread nD τ).loc main_arg3)) ![0, 0] slices_S1000000x2_S1000000x1_0_0 :=
  calc W9 (F := Ideal) m ρ c (Proc.devRef .tc main_v9)
    _ = W8 m ρ c (Proc.devRef .tc main_v9) := by kept hostOps1_7
    _ = W7 m ρ c (Proc.devRef .tc main_v9) := by kept hostOps1_6
    _ = W6 m ρ c (Proc.devRef .tc main_v9) := by kept hostOps1_5
    _ = W5 m ρ c (Proc.devRef .tc main_v9) := by kept hostOps1_4
    _ = W4 m ρ c (Proc.devRef .tc main_v9) := by kept hostOps1_3
    _ = W3 m ρ c (Proc.devRef .tc main_v9) := by kept hostOps1_2
    _ = _ := v9_W3 m ρ c

/-- The second padded list is still there when the lists are joined. -/
theorem v10_W9 (c : Dev nD) :
    W9 (F := Ideal) m ρ c (Proc.devRef .tc main_v10)
      = paddedColumn (m ((c : Thread nD τ).loc main_arg3)) ![0, 1] slices_S1000000x2_S1000000x1_0_1 :=
  calc W9 (F := Ideal) m ρ c (Proc.devRef .tc main_v10)
    _ = W8 m ρ c (Proc.devRef .tc main_v10) := by kept hostOps1_7
    _ = W7 m ρ c (Proc.devRef .tc main_v10) := by kept hostOps1_6
    _ = W6 m ρ c (Proc.devRef .tc main_v10) := by kept hostOps1_5
    _ = W5 m ρ c (Proc.devRef .tc main_v10) := by kept hostOps1_4
    _ = _ := v10_W5 m ρ c

/-- The third padded list is still there when the lists are joined. -/
theorem v11_W9 (c : Dev nD) :
    W9 (F := Ideal) m ρ c (Proc.devRef .tc main_v11)
      = paddedColumn (m ((c : Thread nD τ).loc main_arg4)) ![0, 0] slices_S1000000x2_S1000000x1_0_0 :=
  calc W9 (F := Ideal) m ρ c (Proc.devRef .tc main_v11)
    _ = W8 m ρ c (Proc.devRef .tc main_v11) := by kept hostOps1_7
    _ = W7 m ρ c (Proc.devRef .tc main_v11) := by kept hostOps1_6
    _ = _ := v11_W7 m ρ c

/-- The list of first endpoints: the two column-0 lists, padded, end to end. -/
theorem v13_W10 (c : Dev nD) :
    W10 (F := Ideal) m ρ c (Proc.devRef .tc main_v13)
      = concatenate S2031616 0
          [⟨S1015808, paddedColumn (m ((c : Thread nD τ).loc main_arg3)) ![0, 0] slices_S1000000x2_S1000000x1_0_0⟩,
           ⟨S1015808, paddedColumn (m ((c : Thread nD τ).loc main_arg4)) ![0, 0] slices_S1000000x2_S1000000x1_0_0⟩]
          concatenates_S1015808_S1015808_S2031616_d0 := by
  refine (join_v13 (W9 (F := Ideal) m ρ c)).trans ?_
  rw [v9_W9, v11_W9]

/-- The list of second endpoints: the two column-1 lists, padded, end to end. -/
theorem v14_W10 (c : Dev nD) :
    W10 (F := Ideal) m ρ c (Proc.devRef .tc main_v14)
      = concatenate S2031616 0
          [⟨S1015808, paddedColumn (m ((c : Thread nD τ).loc main_arg3)) ![0, 1] slices_S1000000x2_S1000000x1_0_1⟩,
           ⟨S1015808, paddedColumn (m ((c : Thread nD τ).loc main_arg4)) ![0, 1] slices_S1000000x2_S1000000x1_0_1⟩]
          concatenates_S1015808_S1015808_S2031616_d0 := by
  refine (join_v14 (W9 (F := Ideal) m ρ c)).trans ?_
  rw [v10_W9, v12_W9]

/-- The list of first endpoints, as the take after it finds it. -/
theorem index_left (c : Dev nD) (p : Fin 2031616) :
    W10 (F := Ideal) m ρ c (Proc.devRef .tc main_v13) (ix1 p)
      = src (m ((c : Thread nD τ).loc main_arg3)) (m ((c : Thread nD τ).loc main_arg4)) 0 p := by
  rw [v13_W10]
  exact joined_paddedColumns_apply _ _ 0 ![0, 0] rfl rfl slices_S1000000x2_S1000000x1_0_0 p

/-- The list of second endpoints, as the take after it finds it. -/
theorem index_right (c : Dev nD) (p : Fin 2031616) :
    W10 (F := Ideal) m ρ c (Proc.devRef .tc main_v14) (ix1 p)
      = src (m ((c : Thread nD τ).loc main_arg3)) (m ((c : Thread nD τ).loc main_arg4)) 1 p := by
  rw [v14_W10]
  exact joined_paddedColumns_apply _ _ 1 ![0, 1] rfl rfl slices_S1000000x2_S1000000x1_0_1 p

end Cert.KernelIdeal.EdgeValue

end
-- ==== Proof.MidTake.lean ====
/-
  Between the launches, the two takes of table rows: a negative index is wrapped, the row is gathered (the gather
  clamps its start index), and a row whose wrapped index falls outside [0, 99999] is replaced by a fill value. On
  admitted indices no row is replaced.
-/
import proofs.«430457_j40699110097041_3_alg».proof.Proof.Gen.KernelIdeal.Frame
import proofs.«430457_j40699110097041_3_alg».proof.Proof.Spec
import proofs.«430457_j40699110097041_3_alg».proof.Proof.LibGatherRows
import Idealize.ShloMosaic.Lib.Pipeline.Value
import Idealize.ShloMosaic.Lib.ReduceAll

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

/-! ## One take, as a function of the table and the index list -/

/-- The table of rows. -/
abbrev Table (F : FTy → Type) : Type := (⟨S100000x64, .f32⟩ : BufTy).Contents (Elt F)
/-- The rows taken. -/
abbrev Rows (F : FTy → Type) : Type := (⟨S2031616x64, .f32⟩ : BufTy).Contents (Elt F)
/-- A list of index words. -/
abbrev Words : Type := IVec S2031616 32
/-- The same list as a column. -/
abbrev WordCol : Type := IVec S2031616x1 32

/-- Every index wrapped: a negative word has 100000 added. -/
def wrapAll (idx : Words) : Words :=
  select (cmpi .slt idx (broadcastInDim S2031616 ![] bcast_S_S2031616 (constantI S_ 32 0#32)))
    (addi idx (broadcastInDim S2031616 ![] bcast_S_S2031616 (constantI S_ 32 100000#32))) idx

/-- The wrapped indices as a column of start indices. -/
def colOf (idx : Words) : WordCol :=
  broadcastInDim S2031616x1 ![0] bcast_S2031616_S2031616x1_0 (wrapAll idx)

/-- Entry by entry: does the wrapped index lie in [0, 99999]? -/
def inTable (col : WordCol) : IVec S2031616x1 1 :=
  andi (cmpi .sge col (broadcastInDim S2031616x1 ![] bcast_S_S2031616x1 (constantI S_ 32 0#32)))
    (cmpi .sle col (broadcastInDim S2031616x1 ![0, 1] bcast_S1x1_S2031616x1_0_1
      (broadcastInDim S1x1 ![1] bcast_S1_S1x1_1 (constantI S1 32 99999#32))))

/-- Row by row: the conjunction of that row's (single) answer. -/
def rowOk (col : WordCol) : IVec S2031616 1 :=
  Host.reduce IntOp.andi (inTable col) (constantI S_ 1 1#1) reducesTo_S2031616x1_S2031616_d1 h_S_

/-- One take: the gathered rows, a row whose index is off the table replaced by the fill value. -/
def takeRows {F : FTy → Type} [FloatOps F] (z : Table F) (idx : Words) : Rows F :=
  select (broadcastInDim S2031616x64 ![0] bcast_S2031616_S2031616x64_0 (rowOk (colOf idx)))
    (Host.gather gather_S100000x64_S2031616x1_S2031616x64_1_0_n_n_0_1_164 z (colOf idx))
    (broadcastInDim S2031616x64 ![] bcast_S_S2031616x64 (constant (F := F) S_ .f32 0x7FC00000#32))

/-- An entry of the wrapped list is the wrapped entry. -/
theorem wrapAll_apply (idx : Words) (p : Fin 2031616) : wrapAll idx (ix1 p) = wrap (idx (ix1 p)) := rfl

/-- The column's entry in row `p` is the wrapped entry `p`. -/
theorem colOf_apply (idx : Words) (p : Fin 2031616) (q : Fin 1) : colOf idx (ix2 p q) = wrap (idx (ix1 p)) := by
  unfold colOf
  rw [broadcastInDim_apply _ _ _ (ix2 p q) (ix1 p) (fun a => by
    match a with
    | ⟨0, _⟩ => rfl)]
  exact wrapAll_apply idx p

/-- On an admitted index the wrapped entry lies in the table: the answer in row `p` is 1. -/
theorem inTable_apply (idx : Words) (p : Fin 2031616) (q : Fin 1) (h : InRange (idx (ix1 p))) :
    inTable (colOf idx) (ix2 p q) = 1#1 := by
  have e99 : broadcastInDim S2031616x1 ![0, 1] bcast_S1x1_S2031616x1_0_1
      (broadcastInDim S1x1 ![1] bcast_S1_S1x1_1 (constantI S1 32 99999#32)) (ix2 p q) = 99999#32 := by
    rw [broadcastInDim_apply _ _ _ (ix2 p q) (ix2 (0 : Fin 1) (0 : Fin 1)) (fun a => by
      match a with
      | ⟨0, _⟩ => rfl
      | ⟨1, _⟩ => rfl)]
    rw [broadcastInDim_apply _ _ _ (ix2 (0 : Fin 1) (0 : Fin 1)) (ix1 (0 : Fin 1)) (fun a => by
      match a with
      | ⟨0, _⟩ => rfl)]
    rfl
  show IntOp.andi (IntOp.cmpi .sge (colOf idx (ix2 p q)) 0#32)
      (IntOp.cmpi .sle (colOf idx (ix2 p q)) (broadcastInDim S2031616x1 ![0, 1] bcast_S1x1_S2031616x1_0_1
        (broadcastInDim S1x1 ![1] bcast_S1_S1x1_1 (constantI S1 32 99999#32)) (ix2 p q))) = 1#1
  rw [e99, colOf_apply, wrap_ge _ h, wrap_le _ h]
  rfl

/-- A left fold by `and` from 1 over one-bit words that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, h => by
    rw [List.foldl_cons]
    refine foldl_andi_ones f l _ ?_ (fun n hn => h n (List.mem_cons_of_mem _ hn))
    rw [hi, h a List.mem_cons_self]
    rfl

/-- On an admitted index the row's conjunction is 1. -/
theorem rowOk_apply (idx : Words) (p : Fin 2031616) (h : InRange (idx (ix1 p))) :
    rowOk (colOf idx) (ix1 p) = 1#1 := by
  unfold rowOk
  rw [Host.reduce_eq_foldl]
  refine foldl_andi_ones _ _ _ rfl (fun i hi => ?_)
  rw [List.mem_filter] at hi
  have hd : reducesTo_S2031616x1_S2031616_d1.drop i = ix1 p := of_decide_eq_true hi.2
  have h0 : (i 0).val = p.val := by
    have := congrArg (fun j : S2031616.Idx => (j 0).val) hd
    rwa [Shape.ReducesTo.drop_apply_val_of_eq _ i 0 0] at this
  rw [eq_ix2 i, show (i 0 : Fin 2031616) = p from Fin.ext h0]
  exact inTable_apply idx p _ h

/-- THE TAKE AT `(p, k)`: on an admitted index, the table's row named by the index, column `k`. -/
theorem takeRows_apply {F : FTy → Type} [FloatOps F] (z : Table F) (idx : Words) (p : Fin 2031616) (k : Fin 64) (h : InRange (idx (ix1 p))) :
    takeRows z idx (ix2 p k) = z (ix2 (node (idx (ix1 p))) k) := by
  unfold takeRows
  rw [select_apply, broadcastInDim_apply _ _ _ (ix2 p k) (ix1 p) (fun a => by
    match a with
    | ⟨0, _⟩ => rfl), rowOk_apply idx p h, select_one]
  show Host.gather (GatherRows.colDims 100000 64 2031616 gather_S100000x64_S2031616x1_S2031616x64_1_0_n_n_0_1_164_wf) z (colOf idx) (ix2 p k) = _
  rw [GatherRows.gather_col_apply (by decide : 0 < 100000)]
  show z (ix2 (GatherRows.clampPos 100000 _ (colOf idx (ix2 p (0 : Fin 1)))) k) = _
  rw [colOf_apply]
  rfl

/-! ## The two host stretches compute that function

Each stretch is cut in four parts: the indices wrapped and laid out as a column, the test of which rows lie in the
table, the gather, and the replacement of the rows off the table. Each part's result is stated by itself, over any
contents before it; the stretch's result is their composition. -/

/-- The side goal of "no operation of this stretch writes that buffer": each operation's written buffer is another. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section Stretch

variable {F : FTy → Type} [FloatOps F]

attribute [local irreducible] Host.reduce

/-- The first take's stretch, its first part: the indices wrapped and laid out as a column. -/
abbrev takeL1 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S2031616, .i32⟩) (broadcastInDim S2031616 ![] bcast_S_S2031616),
    StableHlo.TRef.binary (.of main_v13 : StableHlo.TRef sig ⟨S2031616, .i32⟩) (.of main_call4_v0 : StableHlo.TRef sig ⟨S2031616, .i32⟩) (.of main_call4_v1 : StableHlo.TRef sig ⟨S2031616, .i1⟩) (cmpi .slt),
    StableHlo.TRef.nullary (.of main_call4_c_0 : StableHlo.TRef sig ⟨S_, .i32⟩) (constantI S_ 32 100000#32),
    StableHlo.TRef.unary (.of main_call4_c_0 : StableHlo.TRef sig ⟨S_, .i32⟩) (.of main_call4_v2 : StableHlo.TRef sig ⟨S2031616, .i32⟩) (broadcastInDim S2031616 ![] bcast_S_S2031616),
    StableHlo.TRef.binary (.of main_v13 : StableHlo.TRef sig ⟨S2031616, .i32⟩) (.of main_call4_v2 : StableHlo.TRef sig ⟨S2031616, .i32⟩) (.of main_call4_v3 : StableHlo.TRef sig ⟨S2031616, .i32⟩) addi,
    StableHlo.TRef.ternary (.of main_call4_v1 : StableHlo.TRef sig ⟨S2031616, .i1⟩) (.of main_call4_v3 : StableHlo.TRef sig ⟨S2031616, .i32⟩) (.of main_v13 : StableHlo.TRef sig ⟨S2031616, .i32⟩) (.of main_call4_v4 : StableHlo.TRef sig ⟨S2031616, .i32⟩) select,
    StableHlo.TRef.unary main_call4_call0.v0 (.of main_call4_v5 : StableHlo.TRef sig ⟨S2031616x1, .i32⟩) (broadcastInDim S2031616x1 ![0] bcast_S2031616_S2031616x1_0) ]
/-- The first take's stretch, its second part: which rows lie in the table. -/
abbrev takeL2 : List (HloOp τ sig (Elt F)) :=
  [ StableHlo.TRef.nullary (.of main_call4_c_1 : StableHlo.TRef sig ⟨S1, .i32⟩) (constantI S1 32 99999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S2031616x1, .i32⟩) (broadcastInDim S2031616x1 ![] bcast_S_S2031616x1),
    StableHlo.TRef.binary (.of main_call4_v5 : StableHlo.TRef sig ⟨S2031616x1, .i32⟩) (.of main_call4_v6 : StableHlo.TRef sig ⟨S2031616x1, .i32⟩) (.of main_call4_v7 : StableHlo.TRef sig ⟨S2031616x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S2031616x1, .i32⟩) (broadcastInDim S2031616x1 ![0, 1] bcast_S1x1_S2031616x1_0_1),
    StableHlo.TRef.binary (.of main_call4_v5 : StableHlo.TRef sig ⟨S2031616x1, .i32⟩) (.of main_call4_v9 : StableHlo.TRef sig ⟨S2031616x1, .i32⟩) (.of main_call4_v10 : StableHlo.TRef sig ⟨S2031616x1, .i1⟩) (cmpi .sle),
    StableHlo.TRef.binary (.of main_call4_v7 : StableHlo.TRef sig ⟨S2031616x1, .i1⟩) (.of main_call4_v10 : StableHlo.TRef sig ⟨S2031616x1, .i1⟩) (.of main_call4_v11 : StableHlo.TRef sig ⟨S2031616x1, .i1⟩) andi,
    StableHlo.TRef.nullary (.of main_call4_c_3 : StableHlo.TRef sig ⟨S_, .i1⟩) (constantI S_ 1 1#1),
    StableHlo.TRef.binary (.of main_call4_v11 : StableHlo.TRef sig ⟨S2031616x1, .i1⟩) (.of main_call4_c_3 : StableHlo.TRef sig ⟨S_, .i1⟩) (.of main_call4_v12 : StableHlo.TRef sig ⟨S2031616, .i1⟩) (fun x v => Host.reduce IntOp.andi x v reducesTo_S2031616x1_S2031616_d1 h_S_) ]
/-- The first take's stretch, its third part: the gather. -/
abbrev takeL3 : List (HloOp τ sig (Elt F)) :=
  [ StableHlo.TRef.binary (.of main_v0 : StableHlo.TRef sig ⟨S100000x64, .f32⟩) (.of main_call4_v5 : StableHlo.TRef sig ⟨S2031616x1, .i32⟩) (.of main_call4_v13 : StableHlo.TRef sig ⟨S2031616x64, .f32⟩) (fun x i => Host.gather gather_S100000x64_S2031616x1_S2031616x64_1_0_n_n_0_1_164 x i) ]
/-- The first take's stretch, its fourth part: the rows off the table replaced. -/
abbrev takeL4 : List (HloOp τ sig (Elt F)) :=
  [ StableHlo.TRef.unary (.of main_call4_v12 : StableHlo.TRef sig ⟨S2031616, .i1⟩) (.of main_call4_v14 : StableHlo.TRef sig ⟨S2031616x64, .i1⟩) (broadcastInDim S2031616x64 ![0] bcast_S2031616_S2031616x64_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S2031616x64, .f32⟩) (broadcastInDim S2031616x64 ![] bcast_S_S2031616x64),
    StableHlo.TRef.ternary (.of main_call4_v14 : StableHlo.TRef sig ⟨S2031616x64, .i1⟩) (.of main_call4_v13 : StableHlo.TRef sig ⟨S2031616x64, .f32⟩) (.of main_call4_v15 : StableHlo.TRef sig ⟨S2031616x64, .f32⟩) (.of main_v15 : StableHlo.TRef sig ⟨S2031616x64, .f32⟩) select ]

/-- The stretch is its four parts in order. -/
theorem hostOps1_9_parts : (hostOps1_9 : List (HloOp τ sig (Elt F))) = takeL1 ++ (takeL2 ++ (takeL3 ++ takeL4)) := rfl

theorem takeL1_col (V : Valuation τ sig (Elt F)) :
    StableHlo.after takeL1 V (Proc.devRef .tc main_call4_v5) = colOf (V (Proc.devRef .tc main_v13)) := by
  after_results
  rfl

theorem takeL1_table (V : Valuation τ sig (Elt F)) :
    StableHlo.after takeL1 V (Proc.devRef .tc main_v0) = V (Proc.devRef .tc main_v0) :=
  StableHlo.after_of_forall_not_mem (b := Proc.devRef .tc main_v0) _ _ (by not_written takeL1)

theorem takeL2_ok (V : Valuation τ sig (Elt F)) :
    StableHlo.after takeL2 V (Proc.devRef .tc main_call4_v12) = rowOk (V (Proc.devRef .tc main_call4_v5)) := by
  after_results
  rfl

theorem takeL2_col (V : Valuation τ sig (Elt F)) :
    StableHlo.after takeL2 V (Proc.devRef .tc main_call4_v5) = V (Proc.devRef .tc main_call4_v5) :=
  StableHlo.after_of_forall_not_mem (b := Proc.devRef .tc main_call4_v5) _ _ (by not_written takeL2)

theorem takeL2_table (V : Valuation τ sig (Elt F)) :
    StableHlo.after takeL2 V (Proc.devRef .tc main_v0) = V (Proc.devRef .tc main_v0) :=
  StableHlo.after_of_forall_not_mem (b := Proc.devRef .tc main_v0) _ _ (by not_written takeL2)

theorem takeL3_rows (V : Valuation τ sig (Elt F)) :
    StableHlo.after takeL3 V (Proc.devRef .tc main_call4_v13)
      = Host.gather gather_S100000x64_S2031616x1_S2031616x64_1_0_n_n_0_1_164 (V (Proc.devRef .tc main_v0))
          (V (Proc.devRef .tc main_call4_v5)) := by
  after_results
  rfl

theorem takeL3_ok (V : Valuation τ sig (Elt F)) :
    StableHlo.after takeL3 V (Proc.devRef .tc main_call4_v12) = V (Proc.devRef .tc main_call4_v12) :=
  StableHlo.after_of_forall_not_mem (b := Proc.devRef .tc main_call4_v12) _ _ (by not_written takeL3)

theorem takeL4_result (V : Valuation τ sig (Elt F)) :
    StableHlo.after takeL4 V (Proc.devRef .tc main_v15)
      = select (broadcastInDim S2031616x64 ![0] bcast_S2031616_S2031616x64_0 (V (Proc.devRef .tc main_call4_v12)))
          (V (Proc.devRef .tc main_call4_v13))
          (broadcastInDim S2031616x64 ![] bcast_S_S2031616x64 (constant (F := F) S_ .f32 0x7FC00000#32)) := by
  after_results
  rfl

/-- The first take's stretch leaves, in its result buffer, the take of the table by the first list. -/
theorem after_take_left (V : Valuation τ sig (Elt F)) :
    StableHlo.after hostOps1_9 V (Proc.devRef .tc main_v15)
      = takeRows (V (Proc.devRef .tc main_v0)) (V (Proc.devRef .tc main_v13)) := by
  rw [hostOps1_9_parts, StableHlo.after_append, StableHlo.after_append, StableHlo.after_append]
  have a5 := takeL1_col V
  have a0 := takeL1_table V
  generalize StableHlo.after takeL1 V = V1 at a5 a0 ⊢
  have b12 := takeL2_ok V1
  have b5 := takeL2_col V1
  have b0 := takeL2_table V1
  generalize StableHlo.after takeL2 V1 = V2 at b12 b5 b0 ⊢
  have c13 := takeL3_rows V2
  have c12 := takeL3_ok V2
  generalize StableHlo.after takeL3 V2 = V3 at c13 c12 ⊢
  rw [takeL4_result V3, c13, c12, b12, b5, b0, a5, a0]
  rfl

/-- The second take's stretch, its first part: the indices wrapped and laid out as a column. -/
abbrev takeR1 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S2031616, .i32⟩) (broadcastInDim S2031616 ![] bcast_S_S2031616),
    StableHlo.TRef.binary (.of main_v14 : StableHlo.TRef sig ⟨S2031616, .i32⟩) (.of main_call5_v0 : StableHlo.TRef sig ⟨S2031616, .i32⟩) (.of main_call5_v1 : StableHlo.TRef sig ⟨S2031616, .i1⟩) (cmpi .slt),
    StableHlo.TRef.nullary (.of main_call5_c_0 : StableHlo.TRef sig ⟨S_, .i32⟩) (constantI S_ 32 100000#32),
    StableHlo.TRef.unary (.of main_call5_c_0 : StableHlo.TRef sig ⟨S_, .i32⟩) (.of main_call5_v2 : StableHlo.TRef sig ⟨S2031616, .i32⟩) (broadcastInDim S2031616 ![] bcast_S_S2031616),
    StableHlo.TRef.binary (.of main_v14 : StableHlo.TRef sig ⟨S2031616, .i32⟩) (.of main_call5_v2 : StableHlo.TRef sig ⟨S2031616, .i32⟩) (.of main_call5_v3 : StableHlo.TRef sig ⟨S2031616, .i32⟩) addi,
    StableHlo.TRef.ternary (.of main_call5_v1 : StableHlo.TRef sig ⟨S2031616, .i1⟩) (.of main_call5_v3 : StableHlo.TRef sig ⟨S2031616, .i32⟩) (.of main_v14 : StableHlo.TRef sig ⟨S2031616, .i32⟩) (.of main_call5_v4 : StableHlo.TRef sig ⟨S2031616, .i32⟩) select,
    StableHlo.TRef.unary main_call5_call0.v0 (.of main_call5_v5 : StableHlo.TRef sig ⟨S2031616x1, .i32⟩) (broadcastInDim S2031616x1 ![0] bcast_S2031616_S2031616x1_0) ]
/-- The second take's stretch, its second part: which rows lie in the table. -/
abbrev takeR2 : List (HloOp τ sig (Elt F)) :=
  [ StableHlo.TRef.nullary (.of main_call5_c_1 : StableHlo.TRef sig ⟨S1, .i32⟩) (constantI S1 32 99999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S2031616x1, .i32⟩) (broadcastInDim S2031616x1 ![] bcast_S_S2031616x1),
    StableHlo.TRef.binary (.of main_call5_v5 : StableHlo.TRef sig ⟨S2031616x1, .i32⟩) (.of main_call5_v6 : StableHlo.TRef sig ⟨S2031616x1, .i32⟩) (.of main_call5_v7 : StableHlo.TRef sig ⟨S2031616x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S2031616x1, .i32⟩) (broadcastInDim S2031616x1 ![0, 1] bcast_S1x1_S2031616x1_0_1),
    StableHlo.TRef.binary (.of main_call5_v5 : StableHlo.TRef sig ⟨S2031616x1, .i32⟩) (.of main_call5_v9 : StableHlo.TRef sig ⟨S2031616x1, .i32⟩) (.of main_call5_v10 : StableHlo.TRef sig ⟨S2031616x1, .i1⟩) (cmpi .sle),
    StableHlo.TRef.binary (.of main_call5_v7 : StableHlo.TRef sig ⟨S2031616x1, .i1⟩) (.of main_call5_v10 : StableHlo.TRef sig ⟨S2031616x1, .i1⟩) (.of main_call5_v11 : StableHlo.TRef sig ⟨S2031616x1, .i1⟩) andi,
    StableHlo.TRef.nullary (.of main_call5_c_3 : StableHlo.TRef sig ⟨S_, .i1⟩) (constantI S_ 1 1#1),
    StableHlo.TRef.binary (.of main_call5_v11 : StableHlo.TRef sig ⟨S2031616x1, .i1⟩) (.of main_call5_c_3 : StableHlo.TRef sig ⟨S_, .i1⟩) (.of main_call5_v12 : StableHlo.TRef sig ⟨S2031616, .i1⟩) (fun x v => Host.reduce IntOp.andi x v reducesTo_S2031616x1_S2031616_d1 h_S_) ]
/-- The second take's stretch, its third part: the gather. -/
abbrev takeR3 : List (HloOp τ sig (Elt F)) :=
  [ StableHlo.TRef.binary (.of main_v0 : StableHlo.TRef sig ⟨S100000x64, .f32⟩) (.of main_call5_v5 : StableHlo.TRef sig ⟨S2031616x1, .i32⟩) (.of main_call5_v13 : StableHlo.TRef sig ⟨S2031616x64, .f32⟩) (fun x i => Host.gather gather_S100000x64_S2031616x1_S2031616x64_1_0_n_n_0_1_164 x i) ]
/-- The second take's stretch, its fourth part: the rows off the table replaced. -/
abbrev takeR4 : List (HloOp τ sig (Elt F)) :=
  [ StableHlo.TRef.unary (.of main_call5_v12 : StableHlo.TRef sig ⟨S2031616, .i1⟩) (.of main_call5_v14 : StableHlo.TRef sig ⟨S2031616x64, .i1⟩) (broadcastInDim S2031616x64 ![0] bcast_S2031616_S2031616x64_0),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S2031616x64, .f32⟩) (broadcastInDim S2031616x64 ![] bcast_S_S2031616x64),
    StableHlo.TRef.ternary (.of main_call5_v14 : StableHlo.TRef sig ⟨S2031616x64, .i1⟩) (.of main_call5_v13 : StableHlo.TRef sig ⟨S2031616x64, .f32⟩) (.of main_call5_v15 : StableHlo.TRef sig ⟨S2031616x64, .f32⟩) (.of main_v16 : StableHlo.TRef sig ⟨S2031616x64, .f32⟩) select ]

/-- The stretch is its four parts in order. -/
theorem hostOps1_10_parts : (hostOps1_10 : List (HloOp τ sig (Elt F))) = takeR1 ++ (takeR2 ++ (takeR3 ++ takeR4)) := rfl

theorem takeR1_col (V : Valuation τ sig (Elt F)) :
    StableHlo.after takeR1 V (Proc.devRef .tc main_call5_v5) = colOf (V (Proc.devRef .tc main_v14)) := by
  after_results
  rfl

theorem takeR1_table (V : Valuation τ sig (Elt F)) :
    StableHlo.after takeR1 V (Proc.devRef .tc main_v0) = V (Proc.devRef .tc main_v0) :=
  StableHlo.after_of_forall_not_mem (b := Proc.devRef .tc main_v0) _ _ (by not_written takeR1)

theorem takeR2_ok (V : Valuation τ sig (Elt F)) :
    StableHlo.after takeR2 V (Proc.devRef .tc main_call5_v12) = rowOk (V (Proc.devRef .tc main_call5_v5)) := by
  after_results
  rfl

theorem takeR2_col (V : Valuation τ sig (Elt F)) :
    StableHlo.after takeR2 V (Proc.devRef .tc main_call5_v5) = V (Proc.devRef .tc main_call5_v5) :=
  StableHlo.after_of_forall_not_mem (b := Proc.devRef .tc main_call5_v5) _ _ (by not_written takeR2)

theorem takeR2_table (V : Valuation τ sig (Elt F)) :
    StableHlo.after takeR2 V (Proc.devRef .tc main_v0) = V (Proc.devRef .tc main_v0) :=
  StableHlo.after_of_forall_not_mem (b := Proc.devRef .tc main_v0) _ _ (by not_written takeR2)

theorem takeR3_rows (V : Valuation τ sig (Elt F)) :
    StableHlo.after takeR3 V (Proc.devRef .tc main_call5_v13)
      = Host.gather gather_S100000x64_S2031616x1_S2031616x64_1_0_n_n_0_1_164 (V (Proc.devRef .tc main_v0))
          (V (Proc.devRef .tc main_call5_v5)) := by
  after_results
  rfl

theorem takeR3_ok (V : Valuation τ sig (Elt F)) :
    StableHlo.after takeR3 V (Proc.devRef .tc main_call5_v12) = V (Proc.devRef .tc main_call5_v12) :=
  StableHlo.after_of_forall_not_mem (b := Proc.devRef .tc main_call5_v12) _ _ (by not_written takeR3)

theorem takeR4_result (V : Valuation τ sig (Elt F)) :
    StableHlo.after takeR4 V (Proc.devRef .tc main_v16)
      = select (broadcastInDim S2031616x64 ![0] bcast_S2031616_S2031616x64_0 (V (Proc.devRef .tc main_call5_v12)))
          (V (Proc.devRef .tc main_call5_v13))
          (broadcastInDim S2031616x64 ![] bcast_S_S2031616x64 (constant (F := F) S_ .f32 0x7FC00000#32)) := by
  after_results
  rfl

/-- The second take's stretch leaves, in its result buffer, the take of the table by the second list. -/
theorem after_take_right (V : Valuation τ sig (Elt F)) :
    StableHlo.after hostOps1_10 V (Proc.devRef .tc main_v16)
      = takeRows (V (Proc.devRef .tc main_v0)) (V (Proc.devRef .tc main_v14)) := by
  rw [hostOps1_10_parts, StableHlo.after_append, StableHlo.after_append, StableHlo.after_append]
  have a5 := takeR1_col V
  have a0 := takeR1_table V
  generalize StableHlo.after takeR1 V = V1 at a5 a0 ⊢
  have b12 := takeR2_ok V1
  have b5 := takeR2_col V1
  have b0 := takeR2_table V1
  generalize StableHlo.after takeR2 V1 = V2 at b12 b5 b0 ⊢
  have c13 := takeR3_rows V2
  have c12 := takeR3_ok V2
  generalize StableHlo.after takeR3 V2 = V3 at c13 c12 ⊢
  rw [takeR4_result V3, c13, c12, b12, b5, b0, a5, a0]
  rfl

end Stretch

variable (m : (ℓ : Loc nD τ sig) → Buf (Elt Ideal) ℓ) (ρ : Dev nD → PrngReg)

/-! ## Buffers a stretch does not write -/

/-- The second take does not touch the first take's result. -/
theorem W12_v15 (c : Dev nD) :
    W12 (F := Ideal) m ρ c (Proc.devRef .tc main_v15) = W11 (F := Ideal) m ρ c (Proc.devRef .tc main_v15) :=
  StableHlo.after_of_forall_not_mem (b := Proc.devRef .tc main_v15) _ _ (by not_written hostOps1_10)

/-- The first take does not touch the second list. -/
theorem W11_v14 (c : Dev nD) :
    W11 (F := Ideal) m ρ c (Proc.devRef .tc main_v14) = W10 (F := Ideal) m ρ c (Proc.devRef .tc main_v14) :=
  StableHlo.after_of_forall_not_mem (b := Proc.devRef .tc main_v14) _ _ (by not_written hostOps1_9)

/-- No host stretch up to the first take writes the table: it is as the first launch left it. -/
theorem W10_v0 (c : Dev nD) :
    W10 (F := Ideal) m ρ c (Proc.devRef .tc main_v0) = W1 (F := Ideal) m ρ c (Proc.devRef .tc main_v0) :=
  calc W10 (F := Ideal) m ρ c (Proc.devRef .tc main_v0)
    _ = W9 (F := Ideal) m ρ c (Proc.devRef .tc main_v0) :=
        StableHlo.after_of_forall_not_mem (b := Proc.devRef .tc main_v0) _ _ (by not_written hostOps1_8)
    _ = W8 (F := Ideal) m ρ c (Proc.devRef .tc main_v0) :=
        StableHlo.after_of_forall_not_mem (b := Proc.devRef .tc main_v0) _ _ (by not_written hostOps1_7)
    _ = W7 (F := Ideal) m ρ c (Proc.devRef .tc main_v0) :=
        StableHlo.after_of_forall_not_mem (b := Proc.devRef .tc main_v0) _ _ (by not_written hostOps1_6)
    _ = W6 (F := Ideal) m ρ c (Proc.devRef .tc main_v0) :=
        StableHlo.after_of_forall_not_mem (b := Proc.devRef .tc main_v0) _ _ (by not_written hostOps1_5)
    _ = W5 (F := Ideal) m ρ c (Proc.devRef .tc main_v0) :=
        StableHlo.after_of_forall_not_mem (b := Proc.devRef .tc main_v0) _ _ (by not_written hostOps1_4)
    _ = W4 (F := Ideal) m ρ c (Proc.devRef .tc main_v0) :=
        StableHlo.after_of_forall_not_mem (b := Proc.devRef .tc main_v0) _ _ (by not_written hostOps1_3)
    _ = W3 (F := Ideal) m ρ c (Proc.devRef .tc main_v0) :=
        StableHlo.after_of_forall_not_mem (b := Proc.devRef .tc main_v0) _ _ (by not_written hostOps1_2)
    _ = W2 (F := Ideal) m ρ c (Proc.devRef .tc main_v0) :=
        StableHlo.after_of_forall_not_mem (b := Proc.devRef .tc main_v0) _ _ (by not_written hostOps1_1)
    _ = W1 (F := Ideal) m ρ c (Proc.devRef .tc main_v0) :=
        StableHlo.after_of_forall_not_mem (b := Proc.devRef .tc main_v0) _ _ (by not_written hostOps1)

/-- Nor does the first take. -/
theorem W11_v0 (c : Dev nD) :
    W11 (F := Ideal) m ρ c (Proc.devRef .tc main_v0) = W1 (F := Ideal) m ρ c (Proc.devRef .tc main_v0) :=
  (StableHlo.after_of_forall_not_mem (b := Proc.devRef .tc main_v0) _ _ (by not_written hostOps1_9)).trans (W10_v0 m ρ c)

/-- The first gathered array, as the second launch finds it: row `p` is the table's row named by entry `p` of the
    list of first endpoints. -/
theorem gathered_left (c : Dev nD) (hE : ∀ p : Fin 2031616, InRange (W10 (F := Ideal) m ρ c (Proc.devRef .tc main_v13) (ix1 p)))
    (p : Fin 2031616) (k : Fin 64) :
    W12 (F := Ideal) m ρ c (Proc.devRef .tc main_v15) (ix2 p k)
      = W1 (F := Ideal) m ρ c (Proc.devRef .tc main_v0) (ix2 (node (W10 (F := Ideal) m ρ c (Proc.devRef .tc main_v13) (ix1 p))) k) := by
  have e1 : W12 (F := Ideal) m ρ c (Proc.devRef .tc main_v15)
      = takeRows (W10 (F := Ideal) m ρ c (Proc.devRef .tc main_v0)) (W10 (F := Ideal) m ρ c (Proc.devRef .tc main_v13)) :=
    (W12_v15 m ρ c).trans (after_take_left (W10 (F := Ideal) m ρ c))
  calc W12 (F := Ideal) m ρ c (Proc.devRef .tc main_v15) (ix2 p k)
    _ = takeRows (W10 (F := Ideal) m ρ c (Proc.devRef .tc main_v0)) (W10 (F := Ideal) m ρ c (Proc.devRef .tc main_v13)) (ix2 p k) :=
        congrFun e1 _
    _ = W10 (F := Ideal) m ρ c (Proc.devRef .tc main_v0) (ix2 (node (W10 (F := Ideal) m ρ c (Proc.devRef .tc main_v13) (ix1 p))) k) :=
        takeRows_apply _ _ p k (hE p)
    _ = W1 (F := Ideal) m ρ c (Proc.devRef .tc main_v0) (ix2 (node (W10 (F := Ideal) m ρ c (Proc.devRef .tc main_v13) (ix1 p))) k) :=
        congrFun (W10_v0 m ρ c) _

/-- The second gathered array, as the second launch finds it. -/
theorem gathered_right (c : Dev nD) (hE : ∀ p : Fin 2031616, InRange (W10 (F := Ideal) m ρ c (Proc.devRef .tc main_v14) (ix1 p)))
    (p : Fin 2031616) (k : Fin 64) :
    W12 (F := Ideal) m ρ c (Proc.devRef .tc main_v16) (ix2 p k)
      = W1 (F := Ideal) m ρ c (Proc.devRef .tc main_v0) (ix2 (node (W10 (F := Ideal) m ρ c (Proc.devRef .tc main_v14) (ix1 p))) k) := by
  have e1 : W12 (F := Ideal) m ρ c (Proc.devRef .tc main_v16)
      = takeRows (W1 (F := Ideal) m ρ c (Proc.devRef .tc main_v0)) (W10 (F := Ideal) m ρ c (Proc.devRef .tc main_v14)) :=
    (after_take_right (W11 (F := Ideal) m ρ c)).trans (congrArg₂ takeRows (W11_v0 m ρ c) (W11_v14 m ρ c))
  calc W12 (F := Ideal) m ρ c (Proc.devRef .tc main_v16) (ix2 p k)
    _ = takeRows (W1 (F := Ideal) m ρ c (Proc.devRef .tc main_v0)) (W10 (F := Ideal) m ρ c (Proc.devRef .tc main_v14)) (ix2 p k) :=
        congrFun e1 _
    _ = W1 (F := Ideal) m ρ c (Proc.devRef .tc main_v0) (ix2 (node (W10 (F := Ideal) m ρ c (Proc.devRef .tc main_v14) (ix1 p))) k) :=
        takeRows_apply _ _ p k (hE p)

end Cert.KernelIdeal.EdgeValue

end
-- ==== Proof.HostTail.lean ====
/-
  After the second launch: the one row of 2031616 scores is read as two rows of 1015808, the 15808 padding scores at
  the end of each are cut off, and the two rows of 1000000 are laid one after the other as a column.
-/
import proofs.«430457_j40699110097041_3_alg».proof.Proof.Gen.KernelIdeal.Frame
import proofs.«430457_j40699110097041_3_alg».proof.Proof.Spec
import Idealize.ShloMosaic.Lib.Pipeline.Value

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

variable (m : (ℓ : Loc nD τ sig) → Buf (Elt Ideal) ℓ) (ρ : Dev nD → PrngReg)

/-- The score row read as two rows of 1015808 and cut to the first 1000000 columns. -/
def halves (r : Vec Ideal S1x2031616 .f32) : Vec Ideal S2x1000000 .f32 :=
  extractStridedSlice S2x1000000 ![0, 0]
    (shapeCast S2x1015808 (shapeCast S2031616 r shapeCasts_S1x2031616_S2031616) shapeCasts_S2031616_S2x1015808)
    slices_S2x1015808_S2x1000000_0_0

/-- The layout operations after the second launch, as one function of its output row. -/
def tailFn (r : Vec Ideal S1x2031616 .f32) : Vec Ideal S2000000x1 .f32 :=
  broadcastInDim S2000000x1 ![0] bcast_S2000000_S2000000x1_0
    (concatenate S2000000 0
      [⟨S1000000, shapeCast S1000000 (extractStridedSlice S1x1000000 ![0, 0] (halves r) slices_S2x1000000_S1x1000000_0_0)
          shapeCasts_S1x1000000_S1000000⟩,
       ⟨S1000000, shapeCast S1000000 (extractStridedSlice S1x1000000 ![1, 0] (halves r) slices_S2x1000000_S1x1000000_1_0)
          shapeCasts_S1x1000000_S1000000⟩]
      concatenates_S1000000_S1000000_S2000000_d0)

/-- Row `h`, column `q` of the two cut rows is entry `h * 1015808 + q` of the score row. -/
theorem halves_apply (r : Vec Ideal S1x2031616 .f32) (h : Fin 2) (q : Fin 1000000) (p : Fin 2031616)
    (hp : p.val = h.val * 1015808 + q.val) : halves r (ix2 h q) = r (ix2 (0 : Fin 1) p) := by
  have hq := q.isLt
  have hh := h.isLt
  unfold halves
  refine (extractStridedSlice_apply _ _ slices_S2x1015808_S2x1000000_0_0 (ix2 h q)
    (ix2 h (⟨q.val, by omega⟩ : Fin 1015808)) (fun a => by
      match a with
      | ⟨0, _⟩ => show h.val = 0 + h.val; omega
      | ⟨1, _⟩ => show q.val = 0 + q.val; omega)).trans ?_
  refine (shapeCast_apply _ shapeCasts_S2031616_S2x1015808 (ix2 h (⟨q.val, by omega⟩ : Fin 1015808)) (ix1 p) (by
    rw [Shape.rowMajor_val_one, Shape.rowMajor_val_two]
    show p.val = h.val * 1015808 + q.val
    exact hp)).trans ?_
  exact shapeCast_apply _ shapeCasts_S1x2031616_S2031616 (ix1 p) (ix2 (0 : Fin 1) p) (by
    rw [Shape.rowMajor_val_one, Shape.rowMajor_val_two]
    show 0 * 2031616 + p.val = p.val
    omega)

/-- The first of the two cut rows, read at a column. -/
theorem slice_lo (x : Vec Ideal S2x1000000 .f32) (q : Fin 1000000) :
    extractStridedSlice S1x1000000 ![0, 0] x slices_S2x1000000_S1x1000000_0_0 (ix2 (0 : Fin 1) q) = x (ix2 (0 : Fin 2) q) := by
  refine extractStridedSlice_apply _ _ slices_S2x1000000_S1x1000000_0_0 (ix2 (0 : Fin 1) q) (ix2 (0 : Fin 2) q) ?_
  intro a
  rcases a with ⟨_ | _ | n, hn⟩
  · rfl
  · show q.val = 0 + q.val
    omega
  · exact absurd hn (by show ¬ n + 2 < 2; omega)

/-- The second of the two cut rows, read at a column. -/
theorem slice_hi (x : Vec Ideal S2x1000000 .f32) (q : Fin 1000000) :
    extractStridedSlice S1x1000000 ![1, 0] x slices_S2x1000000_S1x1000000_1_0 (ix2 (0 : Fin 1) q) = x (ix2 (1 : Fin 2) q) := by
  refine extractStridedSlice_apply _ _ slices_S2x1000000_S1x1000000_1_0 (ix2 (0 : Fin 1) q) (ix2 (1 : Fin 2) q) ?_
  intro a
  rcases a with ⟨_ | _ | n, hn⟩
  · rfl
  · show q.val = 0 + q.val
    omega
  · exact absurd hn (by show ¬ n + 2 < 2; omega)

/-- The column read at `e` is the joined list read at `e`. -/
theorem tailFn_column (r : Vec Ideal S1x2031616 .f32) (e : Fin 2000000) :
    tailFn r (ix2 e (0 : Fin 1))
      = concatenate S2000000 0
          [⟨S1000000, shapeCast S1000000 (extractStridedSlice S1x1000000 ![0, 0] (halves r) slices_S2x1000000_S1x1000000_0_0)
              shapeCasts_S1x1000000_S1000000⟩,
           ⟨S1000000, shapeCast S1000000 (extractStridedSlice S1x1000000 ![1, 0] (halves r) slices_S2x1000000_S1x1000000_1_0)
              shapeCasts_S1x1000000_S1000000⟩]
          concatenates_S1000000_S1000000_S2000000_d0 (ix1 e) := by
  unfold tailFn
  exact broadcastInDim_apply _ bcast_S2000000_S2000000x1_0 _ (ix2 e (0 : Fin 1)) (ix1 e) (fun a => by
    have ha : a = 0 := Subsingleton.elim _ _
    subst ha
    show e.val = if (2000000 : Nat) = 1 then 0 else e.val
    rw [if_neg (by decide)])

/-- An entry of the first half of the column: a true edge, at its own position in the row. -/
theorem tailFn_apply_lo (r : Vec Ideal S1x2031616 .f32) (e : Fin 2000000) (q : Fin 1000000) (hq : q.val = e.val) :
    tailFn r (ix2 e (0 : Fin 1)) = r (ix2 (0 : Fin 1) (pos e)) := by
  have hql := q.isLt
  have hlt : e.val < 1000000 := by omega
  rw [tailFn_column]
  refine (concatenate_pair_apply_left (t := S2000000) (s₁ := S1000000) (s₂ := S1000000) (0 : Fin 1) _ _
    concatenates_S1000000_S1000000_S2000000_d0 (ix1 e) rfl (ix1 q) (fun b => by
      have hb : b = 0 := Subsingleton.elim _ _
      subst hb
      show q.val = e.val
      exact hq)).trans ?_
  refine (shapeCast_apply _ shapeCasts_S1x1000000_S1000000 (ix1 q) (ix2 (0 : Fin 1) q) (by
      rw [Shape.rowMajor_val_one, Shape.rowMajor_val_two]
      show 0 * 1000000 + q.val = q.val
      rw [Nat.zero_mul, Nat.zero_add])).trans ?_
  refine (slice_lo (halves r) q).trans ?_
  refine halves_apply r 0 q (pos e) ?_
  unfold pos
  rw [dif_pos hlt]
  show e.val = 0 * 1015808 + q.val
  omega

/-- An entry of the second half of the column: a false edge, 15808 positions further along the row. -/
theorem tailFn_apply_hi (r : Vec Ideal S1x2031616 .f32) (e : Fin 2000000) (q : Fin 1000000) (hq : q.val + 1000000 = e.val) :
    tailFn r (ix2 e (0 : Fin 1)) = r (ix2 (0 : Fin 1) (pos e)) := by
  have hql := q.isLt
  have hlt : ¬ e.val < 1000000 := by omega
  rw [tailFn_column]
  refine (concatenate_pair_apply_right (t := S2000000) (s₁ := S1000000) (s₂ := S1000000) (0 : Fin 1) _ _
    concatenates_S1000000_S1000000_S2000000_d0 (ix1 e) rfl rfl (ix1 q)
    (fun b hb => absurd (Subsingleton.elim _ _) hb) (by
      show q.val + 1000000 = e.val
      exact hq)).trans ?_
  refine (shapeCast_apply _ shapeCasts_S1x1000000_S1000000 (ix1 q) (ix2 (0 : Fin 1) q) (by
      rw [Shape.rowMajor_val_one, Shape.rowMajor_val_two]
      show 0 * 1000000 + q.val = q.val
      rw [Nat.zero_mul, Nat.zero_add])).trans ?_
  refine (slice_hi (halves r) q).trans ?_
  refine halves_apply r 1 q (pos e) ?_
  unfold pos
  rw [dif_neg hlt]
  show e.val + 15808 = 1 * 1015808 + q.val
  omega

/-- Entry `e` of the column the layout operations make is the score at position `pos e` of the row. -/
theorem tailFn_apply (r : Vec Ideal S1x2031616 .f32) (e : Fin 2000000) :
    tailFn r (ix2 e (0 : Fin 1)) = r (ix2 (0 : Fin 1) (pos e)) := by
  have he := e.isLt
  by_cases hlt : e.val < 1000000
  · exact tailFn_apply_lo r e ⟨e.val, hlt⟩ rfl
  · exact tailFn_apply_hi r e ⟨e.val - 1000000, by omega⟩ (by show e.val - 1000000 + 1000000 = e.val; omega)

/-- What the last host stretch leaves in the result buffer is those layout operations of the second launch's row. -/
theorem tail_whole (c : Dev nD) :
    W14 (F := Ideal) m ρ c (Proc.devRef .tc main_v26) = tailFn (W13 (F := Ideal) m ρ c (Proc.devRef .tc main_v17)) := by
  show StableHlo.after hostOps2 (W13 m ρ c) (Proc.devRef .tc main_v26) = _
  after_results
  rfl

/-- Entry `e` of the result column is the score at position `pos e` of the second launch's output row. -/
theorem tail_eq (c : Dev nD) (e : Fin 2000000) :
    W14 (F := Ideal) m ρ c (Proc.devRef .tc main_v26) (ix2 e (0 : Fin 1))
      = W13 (F := Ideal) m ρ c (Proc.devRef .tc main_v17) (ix2 (0 : Fin 1) (pos e)) := by
  rw [tail_whole m ρ c]
  exact tailFn_apply _ e

end Cert.KernelIdeal.EdgeValue

end
-- ==== Proof.KernelValue.lean ====
/-
  The kernel program's result is the specification: the tail reads the second launch's row, whose entries are the
  logistic of inner products of gathered rows, the gathered rows are rows of the first launch's table named by the
  endpoint lists, and the table is relu (X · W) · W2.
-/
import proofs.«430457_j40699110097041_3_alg».proof.Proof.Gen.KernelIdeal.Frame
import proofs.«430457_j40699110097041_3_alg».proof.Proof.Spec
import proofs.«430457_j40699110097041_3_alg».proof.Proof.EncodeValue
import proofs.«430457_j40699110097041_3_alg».proof.Proof.DecodeValue
import proofs.«430457_j40699110097041_3_alg».proof.Proof.MidIndex
import proofs.«430457_j40699110097041_3_alg».proof.Proof.MidTake
import proofs.«430457_j40699110097041_3_alg».proof.Proof.HostTail

noncomputable section

open scoped BigOperators

namespace Cert.KernelIdeal.EdgeValue

open Idealize.ShloMosaic Idealize.ShloMosaic.TcCoe Idealize.ShloMosaic.ValueIdx Idealize.SL.Sem
open Cert.KernelIdeal Cert.KernelIdeal.Gen Cert.EdgeScores

variable (m : (ℓ : Loc nD τ sig) → Buf (Elt Ideal) ℓ) (ρ : Dev nD → PrngReg)

/-- A row of the first launch's table, as every later stretch finds it: the embedding of the launch arguments. -/
theorem table_row (c : Dev nD) (a : Fin 100000) (k : Fin 64) :
    W1 (F := Ideal) m ρ c (Proc.devRef .tc main_v0) (ix2 a k)
      = emb (m ((c : Thread nD τ).loc main_arg0)) (m ((c : Thread nD τ).loc main_arg1)) (m ((c : Thread nD τ).loc main_arg2)) a k :=
  (congrFun (W1_arr m ρ c 3) (ix2 a k)).trans (table_eq (V0 m ρ) c a k)

/-- The result array the run leaves is the specification's function of the five argument arrays, when every endpoint
    word is admitted. -/
theorem result_eq (c : Dev nD)
    (hE1 : ∀ i, InRange (m ((c : Thread nD τ).loc main_arg3) i)) (hE2 : ∀ i, InRange (m ((c : Thread nD τ).loc main_arg4) i)) :
    W14 (F := Ideal) m ρ c (Proc.devRef .tc main_v26)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  -- every word of the padded endpoint lists is admitted: an endpoint of an edge, or the padding's zero word
  have hL : ∀ p : Fin 2031616, InRange (W10 (F := Ideal) m ρ c (Proc.devRef .tc main_v13) (ix1 p)) := fun p => by
    rw [index_left m ρ c p]; exact src_inRange _ _ hE1 hE2 0 p
  have hR : ∀ p : Fin 2031616, InRange (W10 (F := Ideal) m ρ c (Proc.devRef .tc main_v14) (ix1 p)) := fun p => by
    rw [index_right m ρ c p]; exact src_inRange _ _ hE1 hE2 1 p
  funext i
  obtain ⟨e, z, rfl⟩ : ∃ (e : Fin 2000000) (z : Fin 1), i = ix2 e z := ⟨i 0, i 1, eq_ix2 i⟩
  obtain rfl : z = 0 := Subsingleton.elim _ _
  -- the result's entry e is the second launch's score at the edge's position in the padded layout
  refine (tail_eq m ρ c e).trans ?_
  refine (congrFun (W13_arr m ρ c 2) (ix2 (0 : Fin 1) (pos e))).trans ?_
  refine (scores_eq (V12 m ρ) c (pos e)).trans ?_
  show Ideal.logistic (∑ k : Fin 64, rowsL (V12 m ρ) c (ix2 (pos e) k) * rowsR (V12 m ρ) c (ix2 (pos e) k))
    = score (emb _ _ _) (node (edge _ _ 0 e)) (node (edge _ _ 1 e))
  unfold score
  refine congrArg Ideal.logistic (Finset.sum_congr rfl fun k _ => ?_)
  -- each gathered row is the table's row its endpoint word names
  have eL : rowsL (V12 m ρ) c (ix2 (pos e) k)
      = emb (m ((c : Thread nD τ).loc main_arg0)) (m ((c : Thread nD τ).loc main_arg1)) (m ((c : Thread nD τ).loc main_arg2))
          (node (edge (m ((c : Thread nD τ).loc main_arg3)) (m ((c : Thread nD τ).loc main_arg4)) 0 e)) k := by
    refine (gathered_left m ρ c hL (pos e) k).trans ?_
    rw [index_left m ρ c (pos e), src_pos]
    exact table_row m ρ c _ k
  have eR : rowsR (V12 m ρ) c (ix2 (pos e) k)
      = emb (m ((c : Thread nD τ).loc main_arg0)) (m ((c : Thread nD τ).loc main_arg1)) (m ((c : Thread nD τ).loc main_arg2))
          (node (edge (m ((c : Thread nD τ).loc main_arg3)) (m ((c : Thread nD τ).loc main_arg4)) 1 e)) k := by
    refine (gathered_right m ρ c hR (pos e) k).trans ?_
    rw [index_right m ρ c (pos e), src_pos]
    exact table_row m ρ c _ k
  rw [eL, eR]

end Cert.KernelIdeal.EdgeValue

end
-- ==== Proof.RefValue.lean ====
/-
  The reference program's result is the specification: it computes the embedding table by two matrix products with a
  relu between, wraps and gathers the endpoint rows of the true and of the false edges, sums the products of each pair
  of rows, joins the two lists and applies 1 / (1 + exp (−s)).
-/
import proofs.«430457_j40699110097041_3_alg».proof.Proof.Gen.ReferenceIdeal.Read
import proofs.«430457_j40699110097041_3_alg».proof.Proof.Spec
import proofs.«430457_j40699110097041_3_alg».proof.Proof.LibPlainDot
import proofs.«430457_j40699110097041_3_alg».proof.Proof.LibGatherRows
import Idealize.ShloMosaic.Lib.IdealHost

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.EdgeScores

/-! ## The embedding table -/

/-- Entry (a, b) of the second matrix product is the specification's table: the inner product is relu of the first
    product's row, and the relu's zero is the float word zero. -/
theorem table_apply (X : (⟨S100000x512, .f32⟩ : BufTy).Contents (Elt Ideal)) (W : (⟨S512x128, .f32⟩ : BufTy).Contents (Elt Ideal))
    (W2 : (⟨S128x64, .f32⟩ : BufTy).Contents (Elt Ideal)) (a : Fin 100000) (b : Fin 64) :
    val_main_v2 (F := Ideal) X W W2 (ix2 a b) = emb X W W2 a b := by
  rw [val_main_v2_apply]
  unfold emb
  refine Finset.sum_congr rfl fun k _ => ?_
  have hl : lidx_main_v2 (ix2 a b) k = ix2 a k :=
    funext fun ax => Fin.ext (by match ax with | ⟨0, _⟩ => rfl | ⟨1, _⟩ => rfl)
  have hr : ridx_main_v2 (ix2 a b) k = ix2 k b :=
    funext fun ax => Fin.ext (by match ax with | ⟨0, _⟩ => rfl | ⟨1, _⟩ => rfl)
  rw [hl, hr, val_main_v1_apply, val_main_v0_apply, val_main_call0_v0_apply, val_main_call0_cst_apply]
  rw [Ideal.maximumf_def, Ideal.ofBits_def, Ideal.ofBits_zero_f32]
  refine congrArg (fun s => max s 0 * W2 (ix2 k b)) (Finset.sum_congr rfl fun l _ => ?_)
  have hl0 : lidx_main_v0 (ix2 a k) l = ix2 a l :=
    funext fun ax => Fin.ext (by match ax with | ⟨0, _⟩ => rfl | ⟨1, _⟩ => rfl)
  have hr0 : ridx_main_v0 (ix2 a k) l = ix2 l k :=
    funext fun ax => Fin.ext (by match ax with | ⟨0, _⟩ => rfl | ⟨1, _⟩ => rfl)
  rw [hl0, hr0]

/-! ## The endpoint columns: each entry is the wrapped word -/

/-- The first endpoint column of the true edges, entry by entry: compare with 0, add 100000, select. -/
theorem col_true0 (E1 : (⟨S1000000x2, .i32⟩ : BufTy).Contents (Elt Ideal)) (e : Fin 1000000) :
    val_main_v10 (F := Ideal) E1 (ix2 e (0 : Fin 1)) = wrap (E1 (ix2 e (0 : Fin 2))) := by
  rw [val_main_v10_apply, val_main_v9_apply, val_main_v6_apply, val_main_v8_apply, val_main_v5_apply, val_main_c_apply,
    val_main_v7_apply, val_main_c_0_apply, val_main_v4_apply, val_main_v3_apply]
  have hi : idx_main_v3 (idx_main_v4 (idx_main_v10 (ix2 e (0 : Fin 1)))) = ix2 e (0 : Fin 2) :=
    funext fun ax => Fin.ext (by
      match ax with
      | ⟨0, _⟩ => exact Nat.div_one _
      | ⟨1, _⟩ => rfl)
  rw [hi]
  rfl

/-- The second endpoint column of the true edges. -/
theorem col_true1 (E1 : (⟨S1000000x2, .i32⟩ : BufTy).Contents (Elt Ideal)) (e : Fin 1000000) :
    val_main_v19 (F := Ideal) E1 (ix2 e (0 : Fin 1)) = wrap (E1 (ix2 e (1 : Fin 2))) := by
  rw [val_main_v19_apply, val_main_v18_apply, val_main_v15_apply, val_main_v17_apply, val_main_v14_apply, val_main_c_1_apply,
    val_main_v16_apply, val_main_c_2_apply, val_main_v13_apply, val_main_v12_apply]
  have hi : idx_main_v12 (idx_main_v13 (idx_main_v19 (ix2 e (0 : Fin 1)))) = ix2 e (1 : Fin 2) :=
    funext fun ax => Fin.ext (by
      match ax with
      | ⟨0, _⟩ => exact Nat.div_one _
      | ⟨1, _⟩ => rfl)
  rw [hi]
  rfl

/-- The first endpoint column of the false edges. -/
theorem col_false0 (E2 : (⟨S1000000x2, .i32⟩ : BufTy).Contents (Elt Ideal)) (e : Fin 1000000) :
    val_main_v31 (F := Ideal) E2 (ix2 e (0 : Fin 1)) = wrap (E2 (ix2 e (0 : Fin 2))) := by
  rw [val_main_v31_apply, val_main_v30_apply, val_main_v27_apply, val_main_v29_apply, val_main_v26_apply, val_main_c_3_apply,
    val_main_v28_apply, val_main_c_4_apply, val_main_v25_apply, val_main_v24_apply]
  have hi : idx_main_v24 (idx_main_v25 (idx_main_v31 (ix2 e (0 : Fin 1)))) = ix2 e (0 : Fin 2) :=
    funext fun ax => Fin.ext (by
      match ax with
      | ⟨0, _⟩ => exact Nat.div_one _
      | ⟨1, _⟩ => rfl)
  rw [hi]
  rfl

/-- The second endpoint column of the false edges. -/
theorem col_false1 (E2 : (⟨S1000000x2, .i32⟩ : BufTy).Contents (Elt Ideal)) (e : Fin 1000000) :
    val_main_v40 (F := Ideal) E2 (ix2 e (0 : Fin 1)) = wrap (E2 (ix2 e (1 : Fin 2))) := by
  rw [val_main_v40_apply, val_main_v39_apply, val_main_v36_apply, val_main_v38_apply, val_main_v35_apply, val_main_c_5_apply,
    val_main_v37_apply, val_main_c_6_apply, val_main_v34_apply, val_main_v33_apply]
  have hi : idx_main_v33 (idx_main_v34 (idx_main_v40 (ix2 e (0 : Fin 1)))) = ix2 e (1 : Fin 2) :=
    funext fun ax => Fin.ext (by
      match ax with
      | ⟨0, _⟩ => exact Nat.div_one _
      | ⟨1, _⟩ => rfl)
  rw [hi]
  rfl

/-! ## The gathers: row `node x` of the table -/

/-- The program's take of rows at (e, k): the table at the row the start word names (read signed, clamped) and column k. -/
theorem gather_rows (T : (⟨S100000x64, .f32⟩ : BufTy).Contents (Elt Ideal)) (idx : (⟨S1000000x1, .i32⟩ : BufTy).Contents (Elt Ideal))
    (e : Fin 1000000) (k : Fin 64) :
    Host.gather gather_S100000x64_S1000000x1_S1000000x64_1_0_n_n_0_1_164 T idx (ix2 e k)
      = T (ix2 (GatherRows.clampPos 100000 (by decide) (idx (ix2 e (0 : Fin 1)))) k) :=
  GatherRows.gather_col_apply (by decide) gather_S100000x64_S1000000x1_S1000000x64_1_0_n_n_0_1_164_wf T idx (ix2 e k)

/-- The first endpoint's row of a true edge. -/
theorem row_true0 (X : (⟨S100000x512, .f32⟩ : BufTy).Contents (Elt Ideal)) (W : (⟨S512x128, .f32⟩ : BufTy).Contents (Elt Ideal))
    (W2 : (⟨S128x64, .f32⟩ : BufTy).Contents (Elt Ideal)) (E1 : (⟨S1000000x2, .i32⟩ : BufTy).Contents (Elt Ideal))
    (e : Fin 1000000) (k : Fin 64) :
    val_main_v11 (F := Ideal) X W W2 E1 (ix2 e k) = emb X W W2 (node (E1 (ix2 e (0 : Fin 2)))) k := by
  unfold val_main_v11
  rw [gather_rows, col_true0, table_apply]
  rfl

/-- The second endpoint's row of a true edge. -/
theorem row_true1 (X : (⟨S100000x512, .f32⟩ : BufTy).Contents (Elt Ideal)) (W : (⟨S512x128, .f32⟩ : BufTy).Contents (Elt Ideal))
    (W2 : (⟨S128x64, .f32⟩ : BufTy).Contents (Elt Ideal)) (E1 : (⟨S1000000x2, .i32⟩ : BufTy).Contents (Elt Ideal))
    (e : Fin 1000000) (k : Fin 64) :
    val_main_v20 (F := Ideal) X W W2 E1 (ix2 e k) = emb X W W2 (node (E1 (ix2 e (1 : Fin 2)))) k := by
  unfold val_main_v20
  rw [gather_rows, col_true1, table_apply]
  rfl

/-- The first endpoint's row of a false edge. -/
theorem row_false0 (X : (⟨S100000x512, .f32⟩ : BufTy).Contents (Elt Ideal)) (W : (⟨S512x128, .f32⟩ : BufTy).Contents (Elt Ideal))
    (W2 : (⟨S128x64, .f32⟩ : BufTy).Contents (Elt Ideal)) (E2 : (⟨S1000000x2, .i32⟩ : BufTy).Contents (Elt Ideal))
    (e : Fin 1000000) (k : Fin 64) :
    val_main_v32 (F := Ideal) X W W2 E2 (ix2 e k) = emb X W W2 (node (E2 (ix2 e (0 : Fin 2)))) k := by
  unfold val_main_v32
  rw [gather_rows, col_false0, table_apply]
  rfl

/-- The second endpoint's row of a false edge. -/
theorem row_false1 (X : (⟨S100000x512, .f32⟩ : BufTy).Contents (Elt Ideal)) (W : (⟨S512x128, .f32⟩ : BufTy).Contents (Elt Ideal))
    (W2 : (⟨S128x64, .f32⟩ : BufTy).Contents (Elt Ideal)) (E2 : (⟨S1000000x2, .i32⟩ : BufTy).Contents (Elt Ideal))
    (e : Fin 1000000) (k : Fin 64) :
    val_main_v41 (F := Ideal) X W W2 E2 (ix2 e k) = emb X W W2 (node (E2 (ix2 e (1 : Fin 2)))) k := by
  unfold val_main_v41
  rw [gather_rows, col_false1, table_apply]
  rfl

/-! ## The two lists of inner products -/

/-- The inner product of a true edge's two rows: the sum over the 64 columns from the float word zero. -/
theorem dot_true (X : (⟨S100000x512, .f32⟩ : BufTy).Contents (Elt Ideal)) (W : (⟨S512x128, .f32⟩ : BufTy).Contents (Elt Ideal))
    (W2 : (⟨S128x64, .f32⟩ : BufTy).Contents (Elt Ideal)) (E1 : (⟨S1000000x2, .i32⟩ : BufTy).Contents (Elt Ideal))
    (e : Fin 1000000) :
    val_main_v23 (F := Ideal) X W W2 E1 (ix2 e (0 : Fin 1))
      = ∑ k : Fin 64, emb X W W2 (node (E1 (ix2 e (0 : Fin 2)))) k * emb X W W2 (node (E1 (ix2 e (1 : Fin 2)))) k := by
  rw [val_main_v23_apply, val_main_v22_apply, val_main_cst_apply, Ideal.ofBits_def, Ideal.ofBits_zero_f32, zero_add]
  refine Finset.sum_congr rfl fun k _ => ?_
  have hi : idx_main_v22 (idx_main_v23 (ix2 e (0 : Fin 1))) k = ix2 e k :=
    funext fun ax => Fin.ext (by match ax with | ⟨0, _⟩ => rfl | ⟨1, _⟩ => rfl)
  rw [hi, val_main_v21_apply, row_true0, row_true1, Ideal.mulf_def]

/-- The inner product of a false edge's two rows. -/
theorem dot_false (X : (⟨S100000x512, .f32⟩ : BufTy).Contents (Elt Ideal)) (W : (⟨S512x128, .f32⟩ : BufTy).Contents (Elt Ideal))
    (W2 : (⟨S128x64, .f32⟩ : BufTy).Contents (Elt Ideal)) (E2 : (⟨S1000000x2, .i32⟩ : BufTy).Contents (Elt Ideal))
    (e : Fin 1000000) :
    val_main_v44 (F := Ideal) X W W2 E2 (ix2 e (0 : Fin 1))
      = ∑ k : Fin 64, emb X W W2 (node (E2 (ix2 e (0 : Fin 2)))) k * emb X W W2 (node (E2 (ix2 e (1 : Fin 2)))) k := by
  rw [val_main_v44_apply, val_main_v43_apply, val_main_cst_7_apply, Ideal.ofBits_def, Ideal.ofBits_zero_f32, zero_add]
  refine Finset.sum_congr rfl fun k _ => ?_
  have hi : idx_main_v43 (idx_main_v44 (ix2 e (0 : Fin 1))) k = ix2 e k :=
    funext fun ax => Fin.ext (by match ax with | ⟨0, _⟩ => rfl | ⟨1, _⟩ => rfl)
  rw [hi, val_main_v42_apply, row_false0, row_false1, Ideal.mulf_def]

/-! ## The join of the two lists, and the logistic -/

/-- Below 1000000 an edge of the result is a true edge. -/
theorem edge_of_lt (E1 E2 : (⟨S1000000x2, .i32⟩ : BufTy).Contents (Elt Ideal)) (col : Fin 2) (e : Fin 2000000)
    (h : e.val < 1000000) : edge E1 E2 col e = E1 (ix2 (⟨e.val, h⟩ : Fin 1000000) col) := by
  unfold edge
  rw [dif_pos h]

/-- From 1000000 on it is a false edge, counted from 1000000. -/
theorem edge_of_ge (E1 E2 : (⟨S1000000x2, .i32⟩ : BufTy).Contents (Elt Ideal)) (col : Fin 2) (e : Fin 2000000)
    (h : ¬ e.val < 1000000) :
    edge E1 E2 col e = E2 (ix2 (⟨e.val - 1000000, by have := e.isLt; omega⟩ : Fin 1000000) col) := by
  unfold edge
  rw [dif_neg h]

/-- The joined column at edge `e`: the inner product of the rows its two endpoint words name. -/
theorem joined_apply (X : (⟨S100000x512, .f32⟩ : BufTy).Contents (Elt Ideal)) (W : (⟨S512x128, .f32⟩ : BufTy).Contents (Elt Ideal))
    (W2 : (⟨S128x64, .f32⟩ : BufTy).Contents (Elt Ideal)) (E1 E2 : (⟨S1000000x2, .i32⟩ : BufTy).Contents (Elt Ideal))
    (e : Fin 2000000) :
    val_main_v45 (F := Ideal) X W W2 E1 E2 (ix2 e (0 : Fin 1))
      = ∑ k : Fin 64, emb X W W2 (node (edge E1 E2 0 e)) k * emb X W W2 (node (edge E1 E2 1 e)) k := by
  unfold val_main_v45
  by_cases h : e.val < 1000000
  · rw [concatenate_pair_apply_left (0 : Fin S2000000x1.rank) _ _ concatenates_S1000000x1_S1000000x1_S2000000x1_d0 (ix2 e (0 : Fin 1)) rfl
      (ix2 (⟨e.val, h⟩ : Fin 1000000) (0 : Fin 1))
      (fun b => by match b with | ⟨0, _⟩ => rfl | ⟨1, _⟩ => rfl)]
    rw [dot_true, edge_of_lt E1 E2 0 e h, edge_of_lt E1 E2 1 e h]
  · have he := e.isLt
    rw [concatenate_pair_apply_right (0 : Fin S2000000x1.rank) _ _ concatenates_S1000000x1_S1000000x1_S2000000x1_d0 (ix2 e (0 : Fin 1)) rfl rfl
      (ix2 (⟨e.val - 1000000, by omega⟩ : Fin 1000000) (0 : Fin 1))
      (fun b hb => by
        match b, hb with
        | ⟨0, _⟩, hb => exact absurd rfl hb
        | ⟨1, _⟩, _ => rfl)
      (by show e.val - 1000000 + 1000000 = e.val; omega)]
    rw [dot_false, edge_of_ge E1 E2 0 e h, edge_of_ge E1 E2 1 e h]

/-- The reference's result array is the specification's function of the five argument arrays. -/
theorem result_eq (X : (⟨S100000x512, .f32⟩ : BufTy).Contents (Elt Ideal)) (W : (⟨S512x128, .f32⟩ : BufTy).Contents (Elt Ideal))
    (W2 : (⟨S128x64, .f32⟩ : BufTy).Contents (Elt Ideal)) (E1 E2 : (⟨S1000000x2, .i32⟩ : BufTy).Contents (Elt Ideal)) :
    val_main_v51 (F := Ideal) X W W2 E1 E2 = G X W W2 E1 E2 := by
  funext i
  obtain ⟨e, z, rfl⟩ : ∃ (e : Fin 2000000) (z : Fin 1), i = ix2 e z := ⟨i 0, i 1, eq_ix2 i⟩
  obtain rfl : z = 0 := Subsingleton.elim _ _
  rw [val_main_v51_apply, val_main_v50_apply, val_main_cst_9_apply, val_main_v49_apply, val_main_v48_apply,
    val_main_cst_8_apply, val_main_v47_apply, val_main_v46_apply, joined_apply]
  rw [Ideal.hostDivf_def, Ideal.addf_def, Ideal.hostUnary_exp_def, Ideal.hostNegf_def, Ideal.negf_def, Ideal.ofBits_def,
    Ideal.ofBits_one_f32]
  rfl

end Cert.ReferenceIdeal.RefValue

end
-- ==== Proof.PreRange.lean ====
/-
  The precondition read: besides the finiteness of the three float arrays it says that every endpoint word of the two
  edge arrays is at least −100000 and less than 100000.
-/
import proofs.«430457_j40699110097041_3_alg».proof.Pre_finite_inputs
import proofs.«430457_j40699110097041_3_alg».proof.Proof.Spec
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs Cert.EdgeScores

variable {F : FTy → Type} [FloatOps F] [Facts]

/-- One edge array's range test, read back. The test compares every word of `A` with a lower bound `lo` (signed "at
    least") and with an upper bound `hi` (signed "less than"), both bounds spread from a scalar over the whole array,
    takes the "and" of the two answers at each position and then the "and" of all positions. Where that last word is 1,
    every position passed both compares. -/
theorem range_read (A : IVec S1000000x2 32) (lo hi : BitVec 32)
    (hb : S_.BroadcastsInDim S1000000x2 (![] : Fin 0 → Fin S1000000x2.rank))
    (hr : S1000000x2.ReducesTo [0, 1] S_) (hS : 0 < S_.numel) (j : S_.Idx)
    (e : Host.reduce IntOp.andi
          (andi (cmpi .sge A (broadcastInDim S1000000x2 ![] hb (constantI S_ 32 lo)))
                (cmpi .slt A (broadcastInDim S1000000x2 ![] hb (constantI S_ 32 hi))))
          (constantI S_ 1 1#1) hr hS j = 1#1) (i : S1000000x2.Idx) :
    IntOp.cmpi .sge (A i) lo = 1#1 ∧ IntOp.cmpi .slt (A i) hi = 1#1 := by
  -- the scalar shape has exactly one index, so every position of `A` reduces into `j`
  haveI : Subsingleton S_.Idx := ⟨fun a b => funext fun d => d.elim0⟩
  -- the "and" over all positions is 1, so the word at position `i` is 1
  have hi1 := Host.reduce_andi_all _ _ hr hS j e i
  -- that word is the "and" of the two compares at `i`; a spread scalar reads as the scalar at every position
  exact IntOp.andi_eq_one.1 hi1

/-- Where the precondition is all ones, every endpoint word of both edge arrays is admitted. -/
theorem endpoints_inRange (X : FVec F S100000x512 .f32) (W : FVec F S512x128 .f32) (W2 : FVec F S128x64 .f32)
    (E1 E2 : IVec S1000000x2 32) (h : fn (F := F) X W W2 E1 E2 = fun _ => 1#1) :
    (∀ i, InRange (E1 i)) ∧ (∀ i, InRange (E2 i)) := by
  -- the precondition is a single word; read it at the one scalar index
  have h0 : fn (F := F) X W W2 E1 E2 ix0 = 1#1 := congrFun h ix0
  unfold fn fn_part1 at h0
  dsimp only at h0
  -- the last "and" joins everything before the second edge array's test with that test
  obtain ⟨h20, h26⟩ := IntOp.andi_eq_one.1 h0
  -- and the one before joins the three finiteness tests with the first edge array's test
  obtain ⟨h13, h19⟩ := IntOp.andi_eq_one.1 h20
  exact ⟨fun i => range_read E1 _ _ _ _ _ ix0 h19 i, fun i => range_read E2 _ _ _ _ _ ix0 h26 i⟩

end Cert.Pre_finite_inputs.Range

end
-- ==== Proof.lean ====
/-
  The claim: the two-launch kernel program and its jnp reference compute the same edge scores over the extended
  reals, under the precondition that the three float arrays are finite and every edge endpoint word lies in
  [−100000, 100000).

  Both programs build the embedding table relu (X · W) · W2, wrap a negative endpoint to count from the table's end,
  read the two rows an edge names, and return the logistic of their inner product, the true edges first and the false
  ones after (Spec.lean: `emb`, `node`, `score`, `G`). They differ in arrangement only. The kernel program computes the
  table 4000 rows at a time, pads the endpoint lists to a multiple of 16384, scores 16384 edges per grid point in one
  row, and cuts the padding away; the reference does each step on whole arrays. They also differ in what they do with
  an endpoint outside the range: the kernel's take replaces such a row by a fill value while the reference's gather
  clamps the index — on the admitted range neither happens, which is the one place the precondition's integer part is
  used. Finiteness of the float arrays is never used: no law beyond the definitions of the operations joins the two
  sides.

  The frames are the generated ones; the kernel program's run with its result named is ValueRun.lean, its value
  KernelValue.lean (over EncodeValue, MidIndex, MidTake, DecodeValue, HostTail); the reference's run and its reading
  are the generated modules, its value RefValue.lean; the precondition is read in PreRange.lean.
-/
import proofs.«430457_j40699110097041_3_alg».proof.Defs
import proofs.«430457_j40699110097041_3_alg».proof.Proof.Gen.Kernel
import proofs.«430457_j40699110097041_3_alg».proof.Proof.Gen.Kernel.Skeleton
import proofs.«430457_j40699110097041_3_alg».proof.Proof.Gen.Kernel.Launch
import proofs.«430457_j40699110097041_3_alg».proof.Proof.Gen.Kernel.Points
import proofs.«430457_j40699110097041_3_alg».proof.Proof.Gen.Kernel.Frame
import proofs.«430457_j40699110097041_3_alg».proof.Proof.Gen.KernelIdeal
import proofs.«430457_j40699110097041_3_alg».proof.Proof.Gen.KernelIdeal.Skeleton
import proofs.«430457_j40699110097041_3_alg».proof.Proof.Gen.KernelIdeal.Launch
import proofs.«430457_j40699110097041_3_alg».proof.Proof.Gen.KernelIdeal.Points
import proofs.«430457_j40699110097041_3_alg».proof.Proof.Gen.KernelIdeal.Frame
import proofs.«430457_j40699110097041_3_alg».proof.Proof.Gen.ReferenceIdeal
import proofs.«430457_j40699110097041_3_alg».proof.Proof.Gen.Pre_finite_inputs
import proofs.«430457_j40699110097041_3_alg».proof.Proof.Gen.ReferenceIdeal.Run
import proofs.«430457_j40699110097041_3_alg».proof.Proof.Gen.ReferenceIdeal.Read
import proofs.«430457_j40699110097041_3_alg».proof.Proof.ValueRun
import proofs.«430457_j40699110097041_3_alg».proof.Proof.KernelValue
import proofs.«430457_j40699110097041_3_alg».proof.Proof.RefValue
import proofs.«430457_j40699110097041_3_alg».proof.Proof.PreRange
import Idealize.ShloMosaic.Adequacy
import Idealize.ShloMosaic.Init

noncomputable section

namespace Cert.Proof

open Idealize.ShloMosaic Idealize.SL.Sem

/-- The kernel program as printed runs, faults nowhere and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's function `G` of the five argument arrays in their result: the kernel
    program because every endpoint word the precondition admits survives its take unreplaced, the reference outright. -/
theorem algebraic : Cert.algebraic_KernelIdeal_ReferenceIdeal := by
  intro m ρ m' ρ' hpre hagree
  have hR := fun c : Dev Cert.KernelIdeal.nD =>
    Cert.Pre_finite_inputs.Range.endpoints_inRange (F := Ideal) _ _ _ _ _ (hpre c)
  refine ⟨fun c => Cert.EdgeScores.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_named (F := Ideal) m ρ)
    obtain ⟨h0, h1, h2, h3, h4, h5⟩ := h c
    exact ⟨h0.trans (Cert.KernelIdeal.EdgeValue.result_eq m ρ c (hR c).1 (hR c).2), h1, h2, h3, h4, h5⟩
  · refine (θ_run Cert.ReferenceIdeal.defs _ _).mono (fun r h c => ?_) (Cert.ReferenceIdeal.Value.run (F := Ideal) m' ρ')
    obtain ⟨h0, h1, h2, h3, h4, h5⟩ := h c
    refine ⟨h0.trans ?_, h1, h2, h3, h4, h5⟩
    rw [Cert.ReferenceIdeal.Read.val_main_v51_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
